-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 92
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x128, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S1650000x1, .f32⟩
  | .hbm, ⟨61, _⟩ => ⟨S1650000x128, .f32⟩
  | .hbm, ⟨62, _⟩ => ⟨S1650000x128, .f32⟩
  | .hbm, ⟨63, _⟩ => ⟨S_, .f32⟩
  | .hbm, ⟨64, _⟩ => ⟨S50000x128, .f32⟩
  | .hbm, ⟨65, _⟩ => ⟨S1650000x1, .i32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S1650000, .i32⟩
  | .hbm, ⟨74, _⟩ => ⟨S1650000, .i1⟩
  | .hbm, ⟨75, _⟩ => ⟨S_, .i32⟩
  | .hbm, ⟨76, _⟩ => ⟨S1650000, .i32⟩
  | .hbm, ⟨77, _⟩ => ⟨S1650000, .i32⟩
  | .hbm, ⟨78, _⟩ => ⟨S1650000, .i32⟩
  | .hbm, ⟨79, _⟩ => ⟨S1650000x1, .i32⟩
  | .hbm, ⟨80, _⟩ => ⟨S1650000x128, .f32⟩
  | .hbm, ⟨81, _⟩ => ⟨S1650000x1, .f32⟩
  | .hbm, ⟨82, _⟩ => ⟨S1650000x128, .f32⟩
  | .hbm, ⟨83, _⟩ => ⟨S1650000x128, .f32⟩
  | .hbm, ⟨84, _⟩ => ⟨S_, .f32⟩
  | .hbm, ⟨85, _⟩ => ⟨S50000x128, .f32⟩
  | .hbm, ⟨86, _⟩ => ⟨S1650000x1, .i32⟩
  | .hbm, ⟨87, _⟩ => ⟨S50000x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x1 : Shape := ⟨2, ![50000, 1]⟩

abbrev nBuf : Space → Nat
  | .hbm => 208
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S50000, .i32⟩
  | 11 => ⟨S1x1600000, .i32⟩
  | 12 => ⟨S1600000, .i32⟩
  | 13 => ⟨S1650000, .i32⟩
  | 14 => ⟨S1x1600000, .i32⟩
  | 15 => ⟨S1600000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S50000x128, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000x128, .f32⟩
  | 60 => ⟨S1650000x1, .f32⟩
  | 61 => ⟨S1650000x128, .f32⟩
  | 62 => ⟨S1650000x128, .f32⟩
  | 63 => ⟨S_, .f32⟩
  | 64 => ⟨S50000x128, .f32⟩
  | 65 => ⟨S1650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S_, .i32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S50000, .f32⟩
  | 91 => ⟨S50000x1, .f32⟩
  | 92 => ⟨S50000x1, .f32⟩
  | 93 => ⟨S50000x1, .f32⟩
  | 94 => ⟨S_, .f32⟩
  | 95 => ⟨S_, .i1⟩
  | 96 => ⟨S_, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .f32⟩
  | 103 => ⟨S50000x1, .f32⟩
  | 104 => ⟨S50000x1, .f32⟩
  | 105 => ⟨S50000x1, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .i1⟩
  | 117 => ⟨S_, .f32⟩
  | 118 => ⟨S50000x128, .f32⟩
  | 119 => ⟨S50000x128, .i1⟩
  | 120 => ⟨S_, .f32⟩
  | 121 => ⟨S_, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S1650000, .i32⟩
  | 4 => ⟨S1650000, .i1⟩
  | 5 => ⟨S_, .i32⟩
  | 6 => ⟨S1650000, .i32⟩
  | 7 => ⟨S1650000, .i32⟩
  | 8 => ⟨S1650000, .i32⟩
  | 9 => ⟨S1650000x1, .i32⟩
  | 10 => ⟨S1650000x128, .f32⟩
  | 11 => ⟨S1650000x1, .f32⟩
  | 12 => ⟨S1650000x128, .f32⟩
  | 13 => ⟨S1650000x128, .f32⟩
  | 14 => ⟨S_, .f32⟩
  | 15 => ⟨S50000x128, .f32⟩
  | 16 => ⟨S1650000x1, .i32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S_, .i32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S50000, .f32⟩
  | 42 => ⟨S50000x1, .f32⟩
  | 43 => ⟨S50000x1, .f32⟩
  | 44 => ⟨S50000x1, .f32⟩
  | 45 => ⟨S_, .f32⟩
  | 46 => ⟨S_, .i1⟩
  | 47 => ⟨S_, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S_, .f32⟩
  | 54 => ⟨S50000x1, .f32⟩
  | 55 => ⟨S50000x1, .f32⟩
  | 56 => ⟨S50000x1, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S50000x128, .f32⟩
  | 70 => ⟨S50000x128, .i1⟩
  | 71 => ⟨S_, .f32⟩
  | 72 => ⟨S_, .f32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_cst_3 : Ref sig .tc := ⟨.hbm, 94, rfl⟩
abbrev main_call1_v13 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_12 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_cst_1 : Ref sig .tc := ⟨.hbm, 120, rfl⟩
abbrev main_call2_call0_v0 : Ref sig .tc := ⟨.hbm, 121, rfl⟩
abbrev main_call2_call0_v1 : Ref sig .tc := ⟨.hbm, 122, rfl⟩
abbrev main_call2_v4 : Ref sig .tc := ⟨.hbm, 123, rfl⟩
abbrev main_call2_v5 : Ref sig .tc := ⟨.hbm, 124, rfl⟩
abbrev main_call2_cst_2 : Ref sig .tc := ⟨.hbm, 125, rfl⟩
abbrev main_call2_v6 : Ref sig .tc := ⟨.hbm, 126, rfl⟩
abbrev main_call2_v7 : Ref sig .tc := ⟨.hbm, 127, rfl⟩
abbrev main_v65 : Ref sig .tc := ⟨.hbm, 128, rfl⟩
abbrev main_v66 : Ref sig .tc := ⟨.hbm, 129, rfl⟩
abbrev main_c_13 : Ref sig .tc := ⟨.hbm, 130, rfl⟩
abbrev main_v67 : Ref sig .tc := ⟨.hbm, 131, rfl⟩
abbrev main_v68 : Ref sig .tc := ⟨.hbm, 132, rfl⟩
abbrev main_c_14 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_15 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_16 : Ref sig .tc := ⟨.hbm, 149, rfl⟩
abbrev main_v83 : Ref sig .tc := ⟨.hbm, 150, rfl⟩
abbrev main_v84 : Ref sig .tc := ⟨.hbm, 151, rfl⟩
abbrev main_cst_17 : Ref sig .tc := ⟨.hbm, 152, rfl⟩
abbrev main_v85 : Ref sig .tc := ⟨.hbm, 153, rfl⟩
abbrev main_v86 : Ref sig .tc := ⟨.hbm, 154, rfl⟩
abbrev main_c_18 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_cst_1 : Ref sig .tc := ⟨.hbm, 166, rfl⟩
abbrev main_call3_v8 : Ref sig .tc := ⟨.hbm, 167, rfl⟩
abbrev main_call3_cst_2 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_v12 : Ref sig .tc := ⟨.hbm, 172, rfl⟩
abbrev main_call3_cst_3 : Ref sig .tc := ⟨.hbm, 173, rfl⟩
abbrev main_call3_v13 : Ref sig .tc := ⟨.hbm, 174, rfl⟩
abbrev main_call3_cst_4 : Ref sig .tc := ⟨.hbm, 175, rfl⟩
abbrev main_call3_call0_v0 : Ref sig .tc := ⟨.hbm, 176, rfl⟩
abbrev main_call3_call0_v1 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_cst_19 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_call4_cst : Ref sig .tc := ⟨.hbm, 193, rfl⟩
abbrev main_call4_v0 : Ref sig .tc := ⟨.hbm, 194, rfl⟩
abbrev main_call4_v1 : Ref sig .tc := ⟨.hbm, 195, rfl⟩
abbrev main_call4_cst_0 : Ref sig .tc := ⟨.hbm, 196, rfl⟩
abbrev main_call4_v2 : Ref sig .tc := ⟨.hbm, 197, rfl⟩
abbrev main_call4_v3 : Ref sig .tc := ⟨.hbm, 198, rfl⟩
abbrev main_call4_cst_1 : Ref sig .tc := ⟨.hbm, 199, rfl⟩
abbrev main_call4_call0_v0 : Ref sig .tc := ⟨.hbm, 200, rfl⟩
abbrev main_call4_call0_v1 : Ref sig .tc := ⟨.hbm, 201, rfl⟩
abbrev main_call4_v4 : Ref sig .tc := ⟨.hbm, 202, rfl⟩
abbrev main_call4_v5 : Ref sig .tc := ⟨.hbm, 203, rfl⟩
abbrev main_call4_cst_2 : Ref sig .tc := ⟨.hbm, 204, rfl⟩
abbrev main_call4_v6 : Ref sig .tc := ⟨.hbm, 205, rfl⟩
abbrev main_call4_v7 : Ref sig .tc := ⟨.hbm, 206, rfl⟩
abbrev main_v101 : Ref sig .tc := ⟨.hbm, 207, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.Spec.lean ====
/-
  The graph-convolution block as ONE function of the ten argument arrays, in the host's own operations.

  Two layers, each: a dense product with a weight matrix; the symmetric-normalised neighbourhood sum
  (gather the product's rows at each edge's source, scale by the edge's weight, scatter-add into the
  edge's destination, self-loops appended to the edge list); a bias; LayerNorm along the 128 features
  (mean and biased variance over the row, epsilon inside the inverse square root, scale and shift);
  and ELU (x where x > 0, otherwise exp x − 1 written as expm1 of x clamped at 0 from above).
  The edge weight is deg(src)^(-1/2) · deg(dst)^(-1/2) with deg the number of edges arriving at a
  node (self-loop included) and 0 in place of the inverse root where the degree is not positive.
  Negative node indices are wrapped by adding 50000 before a gather, as jnp indexing does.
-/
import proofs.«123684_j32667521253433_1_alg».proof.ReferenceIdeal
import Idealize.ShloMosaic.PureOps.Ideal

noncomputable section

namespace Cert.Spec

open Idealize.ShloMosaic Cert.ReferenceIdeal

variable {F : FTy → Type} [FloatOps F] [Facts]
open Facts₀ Facts

/-- The node numbers 0 … 49999: the self-loops' endpoints. -/
def nodes : IVec S50000 32 := iotaInDim S50000 32 0

/-- Row `r` (0: sources, 1: destinations) of the edge list with the self-loops appended. -/
def srcOf (ei : IVec S2x1600000 32) : IVec S1650000 32 :=
  concatenate S1650000 0 [⟨S1600000, shapeCast S1600000 (extractStridedSlice S1x1600000 ![0, 0] ei slices_S2x1600000_S1x1600000_0_0) shapeCasts_S1x1600000_S1600000⟩, ⟨S50000, nodes⟩] concatenates_S1600000_S50000_S1650000_d0

def dstOf (ei : IVec S2x1600000 32) : IVec S1650000 32 :=
  concatenate S1650000 0 [⟨S1600000, shapeCast S1600000 (extractStridedSlice S1x1600000 ![1, 0] ei slices_S2x1600000_S1x1600000_1_0) shapeCasts_S1x1600000_S1600000⟩, ⟨S50000, nodes⟩] concatenates_S1600000_S50000_S1650000_d0

/-- An index vector as a gather reads it: a negative entry has 50000 added; one column. -/
def wrapCol (ix : IVec S1650000 32) : IVec S1650000x1 32 :=
  broadcastInDim S1650000x1 ![0] bcast_S1650000_S1650000x1_0
    (select (cmpi .slt ix (broadcastInDim S1650000 ![] bcast_S_S1650000 (constantI S_ 32 0#32)))
      (addi ix (broadcastInDim S1650000 ![] bcast_S_S1650000 (constantI S_ 32 50000#32))) ix)

/-- Each node's degree: ones scatter-added at the destinations. -/
def degOf (dst : IVec S1650000 32) : FVec F S50000 .f32 :=
  Host.scatterAdd scatter_S50000_S1650000x1_S1650000_n_0_0_1
    (broadcastInDim S50000 ![] bcast_S_S50000 (constant (F := F) S_ .f32 0x00000000#32))
    (broadcastInDim S1650000x1 ![0] bcast_S1650000_S1650000x1_0 dst)
    (broadcastInDim S1650000 ![] bcast_S_S1650000 (constant (F := F) S_ .f32 0x3F800000#32))

/-- deg^(-1/2) where the degree is positive, 0 elsewhere. -/
def dinvOf (deg : FVec F S50000 .f32) : FVec F S50000 .f32 :=
  select (cmpf .ogt deg (broadcastInDim S50000 ![] bcast_S_S50000 (constant (F := F) S_ .f32 0x00000000#32)))
    (Host.rsqrt deg)
    (broadcastInDim S50000 ![] bcast_S_S50000 (id (constant (F := F) S_ .f32 0x00000000#32)))

/-- The edge weights dinv[src] · dinv[dst]. -/
def normOf (ei : IVec S2x1600000 32) : FVec F S1650000 .f32 :=
  mulf (Host.gather gather_S50000_S1650000x1_S1650000_n_0_n_n_0_1_1 (dinvOf (F := F) (degOf (dstOf ei))) (wrapCol (srcOf ei)))
       (Host.gather gather_S50000_S1650000x1_S1650000_n_0_n_n_0_1_1 (dinvOf (F := F) (degOf (dstOf ei))) (wrapCol (dstOf ei)))

/-- The neighbourhood sum of the rows of `h`: gathered at the sources, scaled by the edge weights, scatter-added at the
    destinations into zeros. -/
def agg (h : FVec F S50000x128 .f32) (src dst : IVec S1650000 32) (norm : FVec F S1650000 .f32) : FVec F S50000x128 .f32 :=
  Host.scatterAdd scatter_S50000x128_S1650000x1_S1650000x128_1_0_0_1
    (broadcastInDim S50000x128 ![] bcast_S_S50000x128 (constant (F := F) S_ .f32 0x00000000#32))
    (broadcastInDim S1650000x1 ![0] bcast_S1650000_S1650000x1_0 dst)
    (mulf (Host.gather gather_S50000x128_S1650000x1_S1650000x128_1_0_n_n_0_1_1128 h (wrapCol src))
      (broadcastInDim S1650000x128 ![0, 1] bcast_S1650000x1_S1650000x128_0_1
        (broadcastInDim S1650000x1 ![0] bcast_S1650000_S1650000x1_0 norm)))

/-- The dense product with a weight matrix. -/
def mm (x : FVec F S50000x128 .f32) (w : FVec F S128x128 .f32) : FVec F S50000x128 .f32 :=
  Host.dotGeneral dot_S50000x128_S128x128_S50000x128_1_0_0_1_n_n none x w

/-- A vector of 128 features laid along every row. -/
def rowBcast (v : FVec F S128 .f32) : FVec F S50000x128 .f32 :=
  broadcastInDim S50000x128 ![0, 1] bcast_S1x128_S50000x128_0_1 (broadcastInDim S1x128 ![1] bcast_S128_S1x128_1 v)

/-- A per-row scalar (one column) laid along its row. -/
def colBcast (v : FVec F S50000x1 .f32) : FVec F S50000x128 .f32 :=
  broadcastInDim S50000x128 ![0, 1] bcast_S50000x1_S50000x128_0_1 v

/-- The row sums, as one column. -/
def rowSum (x : FVec F S50000x128 .f32) : FVec F S50000x1 .f32 :=
  broadcastInDim S50000x1 ![0] bcast_S50000_S50000x1_0
    (Host.reduceAdd x (constant (F := F) S_ .f32 0x00000000#32) reducesTo_S50000x128_S50000_d1 h_S_)

/-- The row means: the row sums over 128. -/
def rowMean (x : FVec F S50000x128 .f32) : FVec F S50000x1 .f32 :=
  Host.divf (rowSum x) (broadcastInDim S50000x1 ![] bcast_S_S50000x1 (constant (F := F) S_ .f32 0x43000000#32))

/-- 128 minus the degrees of freedom given up (none), the variance's divisor. -/
def varDiv : FVec F S_ .f32 :=
  subf (constant (F := F) S_ .f32 0x43000000#32) (sitofp (F := F) .f32 (constantI S_ 32 0#32))

/-- The biased row variance as jnp.var computes it: the mean square deviation from the row mean, with jnp's guard on
    the divisor being positive. -/
def rowVar (x : FVec F S50000x128 .f32) : FVec F S50000x1 .f32 :=
  select (broadcastInDim S50000x1 ![] bcast_S_S50000x1 (cmpf .ogt (varDiv (F := F)) (constant (F := F) S_ .f32 0x00000000#32)))
    (Host.divf
      (rowSum (mulf (subf x (colBcast (rowMean x))) (subf x (colBcast (rowMean x)))))
      (broadcastInDim S50000x1 ![] bcast_S_S50000x1 (varDiv (F := F))))
    (broadcastInDim S50000x1 ![] bcast_S_S50000x1 (id (constant (F := F) S_ .f32 0x7FC00000#32)))

/-- ELU as jax.nn.elu writes it. -/
def elu (x : FVec F S50000x128 .f32) : FVec F S50000x128 .f32 :=
  select (cmpf .ogt x (broadcastInDim S50000x128 ![] bcast_S_S50000x128 (constant (F := F) S_ .f32 0x00000000#32)))
    x
    (mulf (broadcastInDim S50000x128 ![] bcast_S_S50000x128 (constant (F := F) S_ .f32 0x3F800000#32))
      (Host.expm1
        (select (cmpf .ogt x (broadcastInDim S50000x128 ![] bcast_S_S50000x128 (constant (F := F) S_ .f32 0x00000000#32)))
          (broadcastInDim S50000x128 ![] bcast_S_S50000x128 (id (constant (F := F) S_ .f32 0x00000000#32)))
          x)))

/-- Bias, LayerNorm along the features, ELU. -/
def lnElu (conv : FVec F S50000x128 .f32) (b g be : FVec F S128 .f32) : FVec F S50000x128 .f32 :=
  elu (addf
    (mulf
      (mulf (subf (addf conv (rowBcast b)) (colBcast (rowMean (addf conv (rowBcast b)))))
        (colBcast (Host.rsqrt (addf (rowVar (addf conv (rowBcast b)))
          (broadcastInDim S50000x1 ![] bcast_S_S50000x1 (constant (F := F) S_ .f32 0x3727C5AC#32))))))
      (rowBcast g))
    (rowBcast be))

/-- One layer. -/
def layer (x : FVec F S50000x128 .f32) (ei : IVec S2x1600000 32) (w : FVec F S128x128 .f32) (b g be : FVec F S128 .f32) :
    FVec F S50000x128 .f32 :=
  lnElu (agg (mm x w) (srcOf ei) (dstOf ei) (normOf ei)) b g be

/-- The block: two layers. -/
def out (x : FVec F S50000x128 .f32) (ei : IVec S2x1600000 32) (w1 : FVec F S128x128 .f32) (b1 g1 be1 : FVec F S128 .f32)
    (w2 : FVec F S128x128 .f32) (b2 g2 be2 : FVec F S128 .f32) : FVec F S50000x128 .f32 :=
  layer (layer x ei w1 b1 g1 be1) ei w2 b2 g2 be2

end Cert.Spec

end
-- ==== Proof.MMVal.lean ====
import proofs.«123684_j32667521253433_1_alg».proof.Proof.Spec
import proofs.«123684_j32667521253433_1_alg».proof.Proof.Gen.KernelIdeal.Frame
import proofs.«123684_j32667521253433_1_alg».proof.Proof.Gen.ReferenceIdeal
import Idealize.ShloMosaic.Lib.ValueIdx
import Idealize.ShloMosaic.Lib.Pipeline.Value
import Idealize.ShloMosaic.PureOps.Ideal.Laws

noncomputable section

namespace Cert.KernelIdeal.MMVal

open Idealize.ShloMosaic Idealize.ShloMosaic.TcCoe Idealize.ShloMosaic.ValueIdx Idealize.SL.Sem
open Cert.KernelIdeal Cert.KernelIdeal.Gen
open scoped BigOperators

/-! ## The two dimension-number records, axis by axis

Both products contract the left operand's axis 1 with the right operand's axis 0: the left index at output (r, q) and
contraction position k is (r, k), the right one (k, q). -/

theorem lhsK_0 (j : S5000x128.Idx) (k : dot_S5000x128_S128x128_S5000x128_1_0_0_1_n_n.contr.Idx) :
    ((dot_S5000x128_S128x128_S5000x128_1_0_0_1_n_n.lhsIdx j k 0 : Fin _) : ℕ) = (j 0).val := by
  simp [DotDims.lhsIdx, dot_S5000x128_S128x128_S5000x128_1_0_0_1_n_n]; rfl

theorem lhsK_1 (j : S5000x128.Idx) (k : dot_S5000x128_S128x128_S5000x128_1_0_0_1_n_n.contr.Idx) :
    ((dot_S5000x128_S128x128_S5000x128_1_0_0_1_n_n.lhsIdx j k 1 : Fin _) : ℕ) = (k ⟨0, by decide⟩).val :=
  dot_S5000x128_S128x128_S5000x128_1_0_0_1_n_n.lhsIdx_val_of_single (cl := 1) rfl j k

theorem rhsK_0 (j : S5000x128.Idx) (k : dot_S5000x128_S128x128_S5000x128_1_0_0_1_n_n.contr.Idx) :
    ((dot_S5000x128_S128x128_S5000x128_1_0_0_1_n_n.rhsIdx j k 0 : Fin _) : ℕ) = (k ⟨0, by decide⟩).val :=
  dot_S5000x128_S128x128_S5000x128_1_0_0_1_n_n.rhsIdx_val_of_single (cr := 0) rfl j k

theorem rhsK_1 (j : S5000x128.Idx) (k : dot_S5000x128_S128x128_S5000x128_1_0_0_1_n_n.contr.Idx) :
    ((dot_S5000x128_S128x128_S5000x128_1_0_0_1_n_n.rhsIdx j k 1 : Fin _) : ℕ) = (j 1).val := by
  simp [DotDims.rhsIdx, dot_S5000x128_S128x128_S5000x128_1_0_0_1_n_n]; rfl

theorem lhsR_0 (j : Cert.ReferenceIdeal.S50000x128.Idx) (k : Cert.ReferenceIdeal.dot_S50000x128_S128x128_S50000x128_1_0_0_1_n_n.contr.Idx) :
    ((Cert.ReferenceIdeal.dot_S50000x128_S128x128_S50000x128_1_0_0_1_n_n.lhsIdx j k 0 : Fin _) : ℕ) = (j 0).val := by
  simp [DotDims.lhsIdx, Cert.ReferenceIdeal.dot_S50000x128_S128x128_S50000x128_1_0_0_1_n_n]; rfl

theorem lhsR_1 (j : Cert.ReferenceIdeal.S50000x128.Idx) (k : Cert.ReferenceIdeal.dot_S50000x128_S128x128_S50000x128_1_0_0_1_n_n.contr.Idx) :
    ((Cert.ReferenceIdeal.dot_S50000x128_S128x128_S50000x128_1_0_0_1_n_n.lhsIdx j k 1 : Fin _) : ℕ) = (k ⟨0, by decide⟩).val :=
  Cert.ReferenceIdeal.dot_S50000x128_S128x128_S50000x128_1_0_0_1_n_n.lhsIdx_val_of_single (cl := 1) rfl j k

theorem rhsR_0 (j : Cert.ReferenceIdeal.S50000x128.Idx) (k : Cert.ReferenceIdeal.dot_S50000x128_S128x128_S50000x128_1_0_0_1_n_n.contr.Idx) :
    ((Cert.ReferenceIdeal.dot_S50000x128_S128x128_S50000x128_1_0_0_1_n_n.rhsIdx j k 0 : Fin _) : ℕ) = (k ⟨0, by decide⟩).val :=
  Cert.ReferenceIdeal.dot_S50000x128_S128x128_S50000x128_1_0_0_1_n_n.rhsIdx_val_of_single (cr := 0) rfl j k

theorem rhsR_1 (j : Cert.ReferenceIdeal.S50000x128.Idx) (k : Cert.ReferenceIdeal.dot_S50000x128_S128x128_S50000x128_1_0_0_1_n_n.contr.Idx) :
    ((Cert.ReferenceIdeal.dot_S50000x128_S128x128_S50000x128_1_0_0_1_n_n.rhsIdx j k 1 : Fin _) : ℕ) = (j 1).val := by
  simp [DotDims.rhsIdx, Cert.ReferenceIdeal.dot_S50000x128_S128x128_S50000x128_1_0_0_1_n_n]; rfl

/-! ## The products at an index -/

/-- The kernel's product into zeros at an index: the sum over the 128 contraction positions. -/
theorem matmulK_apply (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply]
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  congr 2
  · funext a; apply Fin.ext
    match a with
    | ⟨0, _⟩ => exact lhsK_0 _ _
    | ⟨1, _⟩ => exact (lhsK_1 _ _).trans hk
  · funext a; apply Fin.ext
    match a with
    | ⟨0, _⟩ => exact (rhsK_0 _ _).trans hk
    | ⟨1, _⟩ => exact rhsK_1 _ _

/-- The first region's payload at an index: the narrowing of the operands is the identity on the ideal values, so the
    block product is the plain sum of products. -/
theorem pay0_apply (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  exact matmulK_apply _ _ p q

/-- The second region's payload likewise; its cast of the left block to its own shape changes nothing. -/
theorem pay2_apply (x0 : FVec Ideal S5000x128 .f32) (x1 : FVec Ideal S128x128 .f32) (p : Fin 5000) (q : Fin 128) :
    k2_pay1 (F := Ideal) x0 x1 (ix2 p q) = ∑ k : Fin 128, x0 (ix2 p k) * x1 (ix2 k q) := by
  unfold k2_pay1
  refine (matmulK_apply _ _ p q).trans ?_
  rw [shapeCast_self]
  rfl

/-- The specification's dense product at an index: the same sum over the 128 contraction positions. -/
theorem mm_apply (x : FVec Ideal Cert.ReferenceIdeal.S50000x128 .f32) (w : FVec Ideal Cert.ReferenceIdeal.S128x128 .f32)
    (r : Fin 50000) (q : Fin 128) :
    Cert.Spec.mm (F := Ideal) x w (ix2 r q) = ∑ k : Fin 128, x (ix2 r k) * w (ix2 k q) := by
  simp only [Cert.Spec.mm, Host.dotGeneral]
  rw [Ideal.dotGeneral_apply]
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  congr 2
  · funext a; apply Fin.ext
    match a with
    | ⟨0, _⟩ => exact lhsR_0 _ _
    | ⟨1, _⟩ => exact (lhsR_1 _ _).trans hk
  · funext a; apply Fin.ext
    match a with
    | ⟨0, _⟩ => exact (rhsR_0 _ _).trans hk
    | ⟨1, _⟩ => exact rhsR_1 _ _

variable (V : (c : Dev nD) → (b : Ref sig .tc) → Buf (Elt Ideal) ((c : Thread nD τ).loc b))

/-- The zero offsets of a whole-buffer access, as a constant function. -/
theorem zeros2 : (![0, 0] : Fin 2 → Nat) = fun _ => 0 := funext fun a => by
  match a with
  | ⟨0, _⟩ => rfl
  | ⟨1, _⟩ => rfl

/-! ## Region 0: from the row blocks to the array

Point t of the ten reads rows [5000 t, 5000 t + 5000) of the left array and the whole weight, and writes back the same
rows of the output array; the ten row blocks tile the 50000 rows. -/

/-- The printed index maps, decided over the ten points: the left window's row block is the output's, every other block
    index is 0, and the output's row block is at most 9. -/
theorem blockIdx0 : ∀ t : Fin cfg0.N,
      win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem blockOnto0 : ∀ q0 : Fin 10, ∃ t : Fin cfg0.N, win0_2.index t = ![q0.val, 0] :=
  (by decide +kernel : ∀ q0 : Fin 10, ∃ t : Fin grid0.N, win0_2.index t = ![q0.val, 0])

/-- One point's product is the specification's product on that point's rows: when the left block is rows
    [5000 b, 5000 b + 5000) of the array and the right block is the whole weight, the block product at (p, q) is the
    whole product at (5000 b + p, q), both being the sum over the 128 contraction positions of the same products. -/
theorem point0 (X : FVec Ideal S50000x128 .f32) (W : FVec Ideal S128x128 .f32)
    (x0 : FVec Ideal S5000x128 .f32) (x1 : FVec Ideal S128x128 .f32) (b : Nat) (hb : b ≤ 9)
    (h0 : ∀ (p : Fin 5000) (k : Fin 128), x0 (ix2 p k) = X (ix2 (⟨b * 5000 + p.val, by omega⟩ : Fin 50000) k))
    (h1 : ∀ (k q : Fin 128), x1 (ix2 k q) = W (ix2 k q))
    (p : Fin 5000) (q : Fin 128) :
    k0_pay1 (F := Ideal) x0 x1 (ix2 p q)
      = Cert.Spec.mm (F := Ideal) X W (ix2 (⟨b * 5000 + p.val, by omega⟩ : Fin 50000) q) := by
  rw [pay0_apply, mm_apply]
  exact Finset.sum_congr rfl fun k _ => by rw [h0, h1]

/-- What point t writes back is block t of the specification's product of the two arrays as the region finds them. -/
theorem flushed0 (c : Dev nD) (t : Fin cfg0.N) :
    (dat0 (F := Ideal) V c).flushed 2 t
      = ((cfg0.win 2).blk t).view.read (Elt Ideal) (Cert.Spec.mm (F := Ideal) (V c main_arg0) (V c main_arg2)) := by
  show (cfg0.win 2).cut (grid0.coords t) ((dat0 (F := Ideal) V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := blockIdx0 t
  have hL : ∀ (p : Fin 5000) (k : Fin 128), iblk0 V c 0 t (ix2 p k)
      = V c main_arg0 (ix2 (⟨win0_2.index t (0 : Fin 2) * 5000 + p.val, by omega⟩ : Fin 50000) k) := by
    intro p k
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  have hW : ∀ (k q : Fin 128), iblk0 V c 1 t (ix2 k q) = V c main_arg2 (ix2 k q) := by
    intro k q
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  refine funext fun (j : S5000x128.Idx) => ?_
  obtain ⟨p, q, rfl⟩ : ∃ (p : Fin 5000) (q : Fin 128), j = ix2 p q := ⟨j 0, j 1, eq_ix2 j⟩
  refine (point0 (V c main_arg0) (V c main_arg2) _ _ _ e5 hL hW p q).trans ?_
  show Cert.Spec.mm (F := Ideal) (V c main_arg0) (V c main_arg2) _
      = Cert.Spec.mm (F := Ideal) (V c main_arg0) (V c main_arg2) (((cfg0.win 2).blk t).view.emb (ix2 p q))
  refine congrArg _ (funext fun a => Fin.ext ?_)
  match a with
  | ⟨0, _⟩ => show win0_2.index t (0 : Fin 2) * 5000 + p.val = win0_2.index t (0 : Fin 2) * 5000 + 1 * p.val; omega
  | ⟨1, _⟩ => show q.val = win0_2.index t (1 : Fin 2) * 128 + 1 * q.val; omega

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks cover the array: row r is in the block of the point whose row block is r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first dense product's region: whatever the region finds in its two input arrays, its output array ends holding
    their matrix product, row block by row block. -/
theorem region0 (c : Dev nD) :
    (dat0 (F := Ideal) V c).arrAt 2 cfg0.N = Cert.Spec.mm (F := Ideal) (V c main_arg0) (V c main_arg2) :=
  (dat0 (F := Ideal) V c).arrAt_eq_of_cover 2 _ (fun t _ => flushed0 V c t) cover0

/-! ## Region 2: from the row blocks to the array

Point t of the ten reads rows [5000 t, 5000 t + 5000) of the left array and the whole weight, and writes back the same
rows of the output array; the ten row blocks tile the 50000 rows. -/

/-- The printed index maps, decided over the ten points: the left window's row block is the output's, every other block
    index is 0, and the output's row block is at most 9. -/
theorem blockIdx2 : ∀ t : Fin cfg2.N,
      win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem blockOnto2 : ∀ q0 : Fin 10, ∃ t : Fin cfg2.N, win2_2.index t = ![q0.val, 0] :=
  (by decide +kernel : ∀ q0 : Fin 10, ∃ t : Fin grid2.N, win2_2.index t = ![q0.val, 0])

/-- One point's product is the specification's product on that point's rows: when the left block is rows
    [5000 b, 5000 b + 5000) of the array and the right block is the whole weight, the block product at (p, q) is the
    whole product at (5000 b + p, q), both being the sum over the 128 contraction positions of the same products. -/
theorem point2 (X : FVec Ideal S50000x128 .f32) (W : FVec Ideal S128x128 .f32)
    (x0 : FVec Ideal S5000x128 .f32) (x1 : FVec Ideal S128x128 .f32) (b : Nat) (hb : b ≤ 9)
    (h0 : ∀ (p : Fin 5000) (k : Fin 128), x0 (ix2 p k) = X (ix2 (⟨b * 5000 + p.val, by omega⟩ : Fin 50000) k))
    (h1 : ∀ (k q : Fin 128), x1 (ix2 k q) = W (ix2 k q))
    (p : Fin 5000) (q : Fin 128) :
    k2_pay1 (F := Ideal) x0 x1 (ix2 p q)
      = Cert.Spec.mm (F := Ideal) X W (ix2 (⟨b * 5000 + p.val, by omega⟩ : Fin 50000) q) := by
  rw [pay2_apply, mm_apply]
  exact Finset.sum_congr rfl fun k _ => by rw [h0, h1]

/-- What point t writes back is block t of the specification's product of the two arrays as the region finds them. -/
theorem flushed2 (c : Dev nD) (t : Fin cfg2.N) :
    (dat2 (F := Ideal) V c).flushed 2 t
      = ((cfg2.win 2).blk t).view.read (Elt Ideal) (Cert.Spec.mm (F := Ideal) (V c main_v47) (V c main_arg6)) := by
  show (cfg2.win 2).cut (grid2.coords t) ((dat2 (F := Ideal) V c).after 2 t) = _
  rw [after2_2]
  unfold out2_2
  rw [View.canon_unit_zero zeros2]
  simp only [View.ld_unit_zero (S := S5000x128) zeros2, View.ld_unit_zero (S := S128x128) zeros2]
  obtain ⟨e0, e1, e2, e3, e4, e5⟩ := blockIdx2 t
  have hL : ∀ (p : Fin 5000) (k : Fin 128), iblk2 V c 0 t (ix2 p k)
      = V c main_v47 (ix2 (⟨win2_2.index t (0 : Fin 2) * 5000 + p.val, by omega⟩ : Fin 50000) k) := by
    intro p k
    show V c main_v47 (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  have hW : ∀ (k q : Fin 128), iblk2 V c 1 t (ix2 k q) = V c main_arg6 (ix2 k q) := by
    intro k q
    show V c main_arg6 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  refine funext fun (j : S5000x128.Idx) => ?_
  obtain ⟨p, q, rfl⟩ : ∃ (p : Fin 5000) (q : Fin 128), j = ix2 p q := ⟨j 0, j 1, eq_ix2 j⟩
  refine (point2 (V c main_v47) (V c main_arg6) _ _ _ e5 hL hW p q).trans ?_
  show Cert.Spec.mm (F := Ideal) (V c main_v47) (V c main_arg6) _
      = Cert.Spec.mm (F := Ideal) (V c main_v47) (V c main_arg6) (((cfg2.win 2).blk t).view.emb (ix2 p q))
  refine congrArg _ (funext fun a => Fin.ext ?_)
  match a with
  | ⟨0, _⟩ => show win2_2.index t (0 : Fin 2) * 5000 + p.val = win2_2.index t (0 : Fin 2) * 5000 + 1 * p.val; omega
  | ⟨1, _⟩ => show q.val = win2_2.index t (1 : Fin 2) * 128 + 1 * q.val; omega

/-- An index of the array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- The ten row blocks cover the array: row r is in the block of the point whose row block is r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blockOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The second dense product's region, likewise. -/
theorem region2 (c : Dev nD) :
    (dat2 (F := Ideal) V c).arrAt 2 cfg2.N = Cert.Spec.mm (F := Ideal) (V c main_v47) (V c main_arg6) :=
  (dat2 (F := Ideal) V c).arrAt_eq_of_cover 2 _ (fun t _ => flushed2 V c t) cover2

end Cert.KernelIdeal.MMVal

end
-- ==== Proof.HostPre.lean ====
import proofs.«123684_j32667521253433_1_alg».proof.Proof.Spec
import proofs.«123684_j32667521253433_1_alg».proof.Proof.Gen.KernelIdeal.Frame
import proofs.«123684_j32667521253433_1_alg».proof.Proof.Gen.ReferenceIdeal
import Idealize.ShloMosaic.Lib.StableHlo.Run
import Idealize.ShloMosaic.Lib.ValueIdx

noncomputable section

namespace Cert.KernelIdeal.HostPre

open Idealize.ShloMosaic Idealize.ShloMosaic.ValueIdx Idealize.SL.Sem
open Cert.KernelIdeal Cert.KernelIdeal.Gen Idealize.ShloMosaic.StableHlo

variable {F : FTy → Type} [FloatOps F]
variable (m : (ℓ : Loc nD τ sig) → Buf (Elt F) ℓ) (ρ : Dev nD → PrngReg)

/-- A buffer that none of a literal list of operations writes keeps its contents through the list. -/
local macro "not_written" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- After the first stretch the sources with self-loops are the edge list's row 0 with the node numbers appended. -/
theorem W1_v3 (c : Dev nD) : W1 m ρ c (Proc.devRef .tc main_v3) = Cert.Spec.srcOf (m ((c.tc : Thread nD τ).loc main_arg1)) := by
  dsimp only [W1]
  generalize hX : W0 m ρ c = X
  have hA : X (Proc.devRef .tc main_arg1) = m ((c.tc : Thread nD τ).loc main_arg1) := by rw [← hX]
  simp only [hostOps0]
  after_results
  try rw [hA]
  try rfl

/-- After the first stretch the destinations with self-loops are the edge list's row 1 with the node numbers appended. -/
theorem W1_v6 (c : Dev nD) : W1 m ρ c (Proc.devRef .tc main_v6) = Cert.Spec.dstOf (m ((c.tc : Thread nD τ).loc main_arg1)) := by
  dsimp only [W1]
  generalize hX : W0 m ρ c = X
  have hA : X (Proc.devRef .tc main_arg1) = m ((c.tc : Thread nD τ).loc main_arg1) := by rw [← hX]
  simp only [hostOps0]
  after_results
  try rw [hA]
  try rfl

/-- After the first stretch the degrees are ones scatter-added at the destinations. -/
theorem W1_v10 (c : Dev nD) : W1 m ρ c (Proc.devRef .tc main_v10) = (Cert.Spec.degOf (F := F) (Cert.Spec.dstOf (m ((c.tc : Thread nD τ).loc main_arg1)))) := by
  dsimp only [W1]
  generalize hX : W0 m ρ c = X
  have hA : X (Proc.devRef .tc main_arg1) = m ((c.tc : Thread nD τ).loc main_arg1) := by rw [← hX]
  simp only [hostOps0]
  after_results
  try rw [hA]
  try rfl

/-- After the first stretch the mask of the positive degrees. -/
theorem W1_v12 (c : Dev nD) : W1 m ρ c (Proc.devRef .tc main_v12) = cmpf .ogt (Cert.Spec.degOf (F := F) (Cert.Spec.dstOf (m ((c.tc : Thread nD τ).loc main_arg1)))) (broadcastInDim S50000 ![] bcast_S_S50000 (constant (F := F) S_ .f32 0x00000000#32)) := by
  dsimp only [W1]
  generalize hX : W0 m ρ c = X
  have hA : X (Proc.devRef .tc main_arg1) = m ((c.tc : Thread nD τ).loc main_arg1) := by rw [← hX]
  simp only [hostOps0]
  after_results
  try rw [hA]
  try rfl

/-- After the first stretch the inverse square roots of the degrees. -/
theorem W1_v13 (c : Dev nD) : W1 m ρ c (Proc.devRef .tc main_v13) = Host.rsqrt (Cert.Spec.degOf (F := F) (Cert.Spec.dstOf (m ((c.tc : Thread nD τ).loc main_arg1)))) := by
  dsimp only [W1]
  generalize hX : W0 m ρ c = X
  have hA : X (Proc.devRef .tc main_arg1) = m ((c.tc : Thread nD τ).loc main_arg1) := by rw [← hX]
  simp only [hostOps0]
  after_results
  try rw [hA]
  try rfl

/-- After the first stretch the scalar zero that replaces the inverse root of a non-positive degree. -/
theorem W1_cst_2 (c : Dev nD) : W1 m ρ c (Proc.devRef .tc main_cst_2) = constant (F := F) S_ .f32 0x00000000#32 := by
  dsimp only [W1]
  generalize hX : W0 m ρ c = X
  have hA : X (Proc.devRef .tc main_arg1) = m ((c.tc : Thread nD τ).loc main_arg1) := by rw [← hX]
  simp only [hostOps0]
  after_results
  try rw [hA]
  try rfl

/-- The outlined selection: the inverse root where the degree is positive, zero elsewhere. -/
theorem W2_v14 (c : Dev nD) : W2 m ρ c (Proc.devRef .tc main_v14) = Cert.Spec.dinvOf (F := F) (Cert.Spec.degOf (F := F) (Cert.Spec.dstOf (m ((c.tc : Thread nD τ).loc main_arg1)))) := by
  dsimp only [W2]
  have h12 := W1_v12 m ρ c
  have h13 := W1_v13 m ρ c
  have hc2 := W1_cst_2 m ρ c
  generalize W1 m ρ c = X at h12 h13 hc2
  simp only [hostOps0_1]
  after_results
  simp only [TRef.ofBuf, TRef.toBuf, cast_eq]
  rw [h12, h13, hc2]
  try rfl

/-- The outlined selection writes neither index vector. -/
theorem W2_v3 (c : Dev nD) : W2 m ρ c (Proc.devRef .tc main_v3) = Cert.Spec.srcOf (m ((c.tc : Thread nD τ).loc main_arg1)) :=
  calc W2 m ρ c (Proc.devRef .tc main_v3)
    _ = W1 m ρ c (Proc.devRef .tc main_v3) := by not_written
    _ = _ := W1_v3 m ρ c

theorem W2_v6 (c : Dev nD) : W2 m ρ c (Proc.devRef .tc main_v6) = Cert.Spec.dstOf (m ((c.tc : Thread nD τ).loc main_arg1)) :=
  calc W2 m ρ c (Proc.devRef .tc main_v6)
    _ = W1 m ρ c (Proc.devRef .tc main_v6) := by not_written
    _ = _ := W1_v6 m ρ c

/-- At the first region's entry the sources with self-loops, … -/
theorem W3_src (c : Dev nD) : W3 m ρ c (Proc.devRef .tc main_v3) = Cert.Spec.srcOf (m ((c.tc : Thread nD τ).loc main_arg1)) := by
  calc W3 m ρ c (Proc.devRef .tc main_v3)
    _ = W2 m ρ c (Proc.devRef .tc main_v3) := by not_written
    _ = _ := W2_v3 m ρ c

/-- … the destinations with self-loops, … -/
theorem W3_dst (c : Dev nD) : W3 m ρ c (Proc.devRef .tc main_v6) = Cert.Spec.dstOf (m ((c.tc : Thread nD τ).loc main_arg1)) := by
  calc W3 m ρ c (Proc.devRef .tc main_v6)
    _ = W2 m ρ c (Proc.devRef .tc main_v6) := by not_written
    _ = _ := W2_v6 m ρ c

/-- … and the edge weights are the specification's functions of the edge list. -/
theorem W3_norm (c : Dev nD) : W3 m ρ c (Proc.devRef .tc main_v29) = Cert.Spec.normOf (F := F) (m ((c.tc : Thread nD τ).loc main_arg1)) := by
  dsimp only [W3]
  have h3 := W2_v3 m ρ c
  have h6 := W2_v6 m ρ c
  have h14 := W2_v14 m ρ c
  generalize W2 m ρ c = X at h3 h6 h14
  simp only [hostOps0_2]
  after_results_simp
  rw [h3, h6, h14]
  rfl

/-- No operation before the first region writes argument 0. -/
theorem W3_arg0 (c : Dev nD) : W3 m ρ c (Proc.devRef .tc main_arg0) = m ((c.tc : Thread nD τ).loc main_arg0) := by
  calc W3 m ρ c (Proc.devRef .tc main_arg0)
    _ = W2 m ρ c (Proc.devRef .tc main_arg0) := by not_written
    _ = W1 m ρ c (Proc.devRef .tc main_arg0) := by not_written
    _ = W0 m ρ c (Proc.devRef .tc main_arg0) := by not_written
    _ = m ((c.tc : Thread nD τ).loc main_arg0) := rfl

/-- No operation before the first region writes argument 2. -/
theorem W3_arg2 (c : Dev nD) : W3 m ρ c (Proc.devRef .tc main_arg2) = m ((c.tc : Thread nD τ).loc main_arg2) := by
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = m ((c.tc : Thread nD τ).loc main_arg2) := rfl

/-- No operation before the first region writes argument 3. -/
theorem W3_arg3 (c : Dev nD) : W3 m ρ c (Proc.devRef .tc main_arg3) = m ((c.tc : Thread nD τ).loc main_arg3) := by
  calc W3 m ρ c (Proc.devRef .tc main_arg3)
    _ = W2 m ρ c (Proc.devRef .tc main_arg3) := by not_written
    _ = W1 m ρ c (Proc.devRef .tc main_arg3) := by not_written
    _ = W0 m ρ c (Proc.devRef .tc main_arg3) := by not_written
    _ = m ((c.tc : Thread nD τ).loc main_arg3) := rfl

/-- No operation before the first region writes argument 4. -/
theorem W3_arg4 (c : Dev nD) : W3 m ρ c (Proc.devRef .tc main_arg4) = m ((c.tc : Thread nD τ).loc main_arg4) := by
  calc W3 m ρ c (Proc.devRef .tc main_arg4)
    _ = W2 m ρ c (Proc.devRef .tc main_arg4) := by not_written
    _ = W1 m ρ c (Proc.devRef .tc main_arg4) := by not_written
    _ = W0 m ρ c (Proc.devRef .tc main_arg4) := by not_written
    _ = m ((c.tc : Thread nD τ).loc main_arg4) := rfl

/-- No operation before the first region writes argument 5. -/
theorem W3_arg5 (c : Dev nD) : W3 m ρ c (Proc.devRef .tc main_arg5) = m ((c.tc : Thread nD τ).loc main_arg5) := by
  calc W3 m ρ c (Proc.devRef .tc main_arg5)
    _ = W2 m ρ c (Proc.devRef .tc main_arg5) := by not_written
    _ = W1 m ρ c (Proc.devRef .tc main_arg5) := by not_written
    _ = W0 m ρ c (Proc.devRef .tc main_arg5) := by not_written
    _ = m ((c.tc : Thread nD τ).loc main_arg5) := rfl

/-- No operation before the first region writes argument 6. -/
theorem W3_arg6 (c : Dev nD) : W3 m ρ c (Proc.devRef .tc main_arg6) = m ((c.tc : Thread nD τ).loc main_arg6) := by
  calc W3 m ρ c (Proc.devRef .tc main_arg6)
    _ = W2 m ρ c (Proc.devRef .tc main_arg6) := by not_written
    _ = W1 m ρ c (Proc.devRef .tc main_arg6) := by not_written
    _ = W0 m ρ c (Proc.devRef .tc main_arg6) := by not_written
    _ = m ((c.tc : Thread nD τ).loc main_arg6) := rfl

/-- No operation before the first region writes argument 7. -/
theorem W3_arg7 (c : Dev nD) : W3 m ρ c (Proc.devRef .tc main_arg7) = m ((c.tc : Thread nD τ).loc main_arg7) := by
  calc W3 m ρ c (Proc.devRef .tc main_arg7)
    _ = W2 m ρ c (Proc.devRef .tc main_arg7) := by not_written
    _ = W1 m ρ c (Proc.devRef .tc main_arg7) := by not_written
    _ = W0 m ρ c (Proc.devRef .tc main_arg7) := by not_written
    _ = m ((c.tc : Thread nD τ).loc main_arg7) := rfl

/-- No operation before the first region writes argument 8. -/
theorem W3_arg8 (c : Dev nD) : W3 m ρ c (Proc.devRef .tc main_arg8) = m ((c.tc : Thread nD τ).loc main_arg8) := by
  calc W3 m ρ c (Proc.devRef .tc main_arg8)
    _ = W2 m ρ c (Proc.devRef .tc main_arg8) := by not_written
    _ = W1 m ρ c (Proc.devRef .tc main_arg8) := by not_written
    _ = W0 m ρ c (Proc.devRef .tc main_arg8) := by not_written
    _ = m ((c.tc : Thread nD τ).loc main_arg8) := rfl

/-- No operation before the first region writes argument 9. -/
theorem W3_arg9 (c : Dev nD) : W3 m ρ c (Proc.devRef .tc main_arg9) = m ((c.tc : Thread nD τ).loc main_arg9) := by
  calc W3 m ρ c (Proc.devRef .tc main_arg9)
    _ = W2 m ρ c (Proc.devRef .tc main_arg9) := by not_written
    _ = W1 m ρ c (Proc.devRef .tc main_arg9) := by not_written
    _ = W0 m ρ c (Proc.devRef .tc main_arg9) := by not_written
    _ = m ((c.tc : Thread nD τ).loc main_arg9) := rfl

end Cert.KernelIdeal.HostPre

end
-- ==== Proof.LNRow.lean ====
/-
  One row of bias + LayerNorm + ELU, as a function of the row's 128 entries and the three parameter vectors, and the
  host's whole-array form of it read at an index.

  With y = x + b, the row mean μ = (Σ y) / 128, the biased variance σ² = (Σ (y − μ)²) / 128 and
  z = (y_q − μ) · (σ² + ε)^(-1/2) · g_q + be_q, the result at feature q is z where z > 0 and exp z − 1 elsewhere.
  128 and ε are kept as the binary words the programs carry; they are never evaluated here beyond 128 > 0.
-/
import proofs.«123684_j32667521253433_1_alg».proof.Proof.Spec
import proofs.«123684_j32667521253433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.LNRow

open Idealize.ShloMosaic Idealize.ShloMosaic.ValueIdx Cert.ReferenceIdeal

/-- Bias, LayerNorm over the 128 features and ELU of ONE row `x`, at feature `q`. -/
def rowLnElu (x b g be : Fin 128 → EReal) (q : Fin 128) : EReal :=
  let n : EReal := Ideal.ofBits .f32 0x43000000#32
  let y : Fin 128 → EReal := fun k => x k + b k
  let mu : EReal := Ideal.div (∑ k : Fin 128, y k) n
  let var : EReal := Ideal.div (∑ k : Fin 128, (y k - mu) * (y k - mu)) n
  let z : EReal := (y q - mu) * Ideal.rsqrt (var + Ideal.ofBits .f32 0x3727C5AC#32) * g q + be q
  Scalar.select (Ideal.cmp .ogt z (Ideal.ofBits .f32 0x00000000#32)) z (Ideal.exp z - 1)

/-! ## The broadcasts, the row sum and the row statistics read at an index -/

/-- A feature vector laid along every row reads, at (r, q), its entry q. -/
theorem rowBcast_apply (v : FVec Ideal S128 .f32) (r : Fin 50000) (q : Fin 128) :
    Cert.Spec.rowBcast (F := Ideal) v (ix2 r q) = v (ix1 q) := by
  unfold Cert.Spec.rowBcast
  refine (broadcastInDim_apply _ _ _ (ix2 r q) (ix2 0 q) ?_).trans ?_
  · intro a; match a with | ⟨0, _⟩ => rfl | ⟨1, _⟩ => rfl
  · refine broadcastInDim_apply _ _ _ _ (ix1 q) ?_
    intro a; match a with | ⟨0, _⟩ => rfl

/-- A one-column array laid along its rows reads, at (r, q), its entry (r, 0). -/
theorem colBcast_apply (v : FVec Ideal S50000x1 .f32) (r : Fin 50000) (q : Fin 128) :
    Cert.Spec.colBcast (F := Ideal) v (ix2 r q) = v (ix2 r 0) := by
  unfold Cert.Spec.colBcast
  refine broadcastInDim_apply _ _ _ (ix2 r q) (ix2 r 0) ?_
  intro a; match a with | ⟨0, _⟩ => rfl | ⟨1, _⟩ => rfl

/-- The row sums' column at row r is the sum over the 128 entries of row r: the initial value is the word of zero,
    and the reduced index r with the coordinate k inserted on axis 1 is (r, k). -/
theorem rowSum_apply (x : FVec Ideal S50000x128 .f32) (r : Fin 50000) :
    Cert.Spec.rowSum (F := Ideal) x (ix2 r 0) = ∑ k : Fin 128, x (ix2 r k) := by
  unfold Cert.Spec.rowSum
  refine (broadcastInDim_apply _ _ _ (ix2 r 0) (ix1 r) ?_).trans ?_
  · intro a; match a with | ⟨0, _⟩ => rfl
  rw [hostReduceAdd_apply]
  have hR : Shape.Reduces S50000x128 [1] S50000 := by decide
  refine (Ideal.hostReduceAdd_single _ hR _ _ _).trans ?_
  rw [constant_apply, Ideal.ofBits_zero_f32, zero_add]
  refine Finset.sum_congr rfl fun k _ => congrArg x ?_
  funext a; match a with | ⟨0, _⟩ => rfl | ⟨1, _⟩ => rfl

/-- The word 0x43000000 denotes the real 128 … -/
theorem ofBits_128 : Ideal.ofBits .f32 0x43000000#32 = ((128 : ℝ) : EReal) := by
  simp [Ideal.ofBits, Ideal.ieee, -EReal.coe_mul]; norm_num

/-- … which is positive. -/
theorem n_pos : (0 : EReal) < Ideal.ofBits .f32 0x43000000#32 := by
  rw [ofBits_128]; exact EReal.coe_pos.mpr (by norm_num)

/-- The variance's divisor 128 − 0, the 0 converted from the integer zero, is the word of 128 itself: x − 0 = x. -/
theorem varDiv_apply (i : S_.Idx) : Cert.Spec.varDiv (F := Ideal) i = Ideal.ofBits .f32 0x43000000#32 := by
  unfold Cert.Spec.varDiv
  rw [subf_apply, constant_apply, sitofp_apply]
  show _ - (((0#32 : BitVec 32).toInt : ℝ) : EReal) = _
  simp

/-- The row means' column at row r is the row's sum over 128. -/
theorem rowMean_apply (x : FVec Ideal S50000x128 .f32) (r : Fin 50000) :
    Cert.Spec.rowMean (F := Ideal) x (ix2 r 0) = Ideal.div (∑ k : Fin 128, x (ix2 r k)) (Ideal.ofBits .f32 0x43000000#32) := by
  unfold Cert.Spec.rowMean
  rw [hostDivf_apply, rowSum_apply, broadcastInDim_scalar_apply, constant_apply]

/-- The row variances' column at row r is the sum of the squared deviations from the row mean over 128: the guard
    128 − 0 > 0 holds, so the select takes the quotient. -/
theorem rowVar_apply (x : FVec Ideal S50000x128 .f32) (r : Fin 50000) :
    Cert.Spec.rowVar (F := Ideal) x (ix2 r 0)
      = Ideal.div (∑ k : Fin 128,
          (x (ix2 r k) - Ideal.div (∑ k : Fin 128, x (ix2 r k)) (Ideal.ofBits .f32 0x43000000#32))
          * (x (ix2 r k) - Ideal.div (∑ k : Fin 128, x (ix2 r k)) (Ideal.ofBits .f32 0x43000000#32)))
        (Ideal.ofBits .f32 0x43000000#32) := by
  unfold Cert.Spec.rowVar
  rw [select_apply, broadcastInDim_scalar_apply, cmpf_apply, varDiv_apply, constant_apply, Ideal.ofBits_zero_f32]
  have hc : FloatOps.cmpf (F := Ideal) (φ := .f32) .ogt (Ideal.ofBits .f32 0x43000000#32) (0 : EReal) = 1#1 := by
    rw [Ideal.cmpf_def]; unfold Ideal.cmp; simp [n_pos]
  rw [hc, select_one, hostDivf_apply, rowSum_apply, broadcastInDim_scalar_apply, varDiv_apply]
  refine congrArg (fun s => Ideal.div s (Ideal.ofBits .f32 0x43000000#32)) ?_
  refine Finset.sum_congr rfl fun k _ => ?_
  rw [mulf_apply, subf_apply, colBcast_apply, rowMean_apply]

/-- ELU at an index: where z > 0 both selects take z; elsewhere the inner select clamps nothing (it takes z), the
    word 0x3F800000 is 1 and 1 · (exp z − 1) = exp z − 1. -/
theorem elu_apply (x : FVec Ideal S50000x128 .f32) (j : S50000x128.Idx) :
    Cert.Spec.elu (F := Ideal) x j
      = Scalar.select (Ideal.cmp .ogt (x j) (Ideal.ofBits .f32 0x00000000#32)) (x j) (Ideal.exp (x j) - 1) := by
  unfold Cert.Spec.elu
  rw [select_apply, cmpf_apply, broadcastInDim_scalar_apply, constant_apply, Ideal.cmpf_def, mulf_apply,
    broadcastInDim_scalar_apply, constant_apply, Ideal.ofBits_one_f32, one_mul]
  show Scalar.select _ _ (FloatOps.hostUnary (F := Ideal) (φ := .f32) .expm1 (Scalar.select _ _ _)) = _
  rw [Ideal.hostUnary_expm1_def]
  rcases BitVec.eq_zero_or_eq_one (Ideal.cmp .ogt (x j) (Ideal.ofBits .f32 0x00000000#32)) with h | h
  · rw [h, select_zero, select_zero]
    show Ideal.exp (Scalar.select _ _ (x j)) - 1 = _
    rw [cmpf_apply, broadcastInDim_scalar_apply, constant_apply, Ideal.cmpf_def, h, select_zero]
  · rw [h, select_one, select_one]

/-- The host's inverse square root at an index is the extended reals'. -/
theorem hostRsqrt_apply (v : FVec Ideal S50000x1 .f32) (i : S50000x1.Idx) : Host.rsqrt v i = Ideal.rsqrt (v i) := rfl

/-- The host's bias + LayerNorm + ELU of a whole array, read at row `r` and feature `q`, is that function of row `r`:
    the row sums are sums over the row, jnp's divisor 128 − 0 is 128 and its guard 128 − 0 > 0 holds, and
    1 · expm1 (z clamped at 0 from above) is exp z − 1 wherever z is not positive. -/
theorem spec_apply (conv : FVec Ideal S50000x128 .f32) (b g be : FVec Ideal S128 .f32) (r : Fin 50000) (q : Fin 128) :
    Cert.Spec.lnElu (F := Ideal) conv b g be (ix2 r q)
      = rowLnElu (fun k => conv (ix2 r k)) (fun k => b (ix1 k)) (fun k => g (ix1 k)) (fun k => be (ix1 k)) q := by
  unfold Cert.Spec.lnElu
  simp only [elu_apply, addf_apply, mulf_apply, subf_apply, colBcast_apply, rowBcast_apply, rowMean_apply, rowVar_apply,
    hostRsqrt_apply, broadcastInDim_scalar_apply, constant_apply]
  rfl

end Cert.LNRow

end
-- ==== Proof.LNPay.lean ====
/-
  The kernel's bias + LayerNorm + ELU payload on one block of 5000 rows, read at a row and a feature: the same function
  of that row as the host's (the lane sums are sums over the row; the three parameter blocks are one row each, laid
  along every row of the block).
-/
import proofs.«123684_j32667521253433_1_alg».proof.Proof.LNRow
import proofs.«123684_j32667521253433_1_alg».proof.Proof.Gen.KernelIdeal.Skeleton

noncomputable section

namespace Cert.KernelIdeal.LNPay

open Idealize.ShloMosaic Idealize.ShloMosaic.ValueIdx Cert.KernelIdeal Cert.KernelIdeal.Gen Cert.LNRow

/-! ## The two keepdims layout steps read at an index -/

section Layout
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum, and the word for one -/

/-- The lane sum of a block, read at row `p`: the sum over the 128 entries of that row. -/
theorem laneSum_apply (src : FVec Ideal S5000x128 .f32) (h : S5000x128.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  match a with
  | ⟨0, _⟩ => exact Fin.ext rfl
  | ⟨1, _⟩ => exact Fin.ext rfl

/-- The binary word of `1.0` denotes `1`. -/
theorem ofBits_f32_one : Ideal.ofBits .f32 0x3F800000#32 = 1 := by
  simp [Ideal.ofBits, Ideal.ieee, -EReal.coe_mul]; norm_num

/-! ## The blocks the payload starts from -/

/-- The block plus its bias row laid along every row. -/
def biasedBlock (x0 : FVec Ideal S5000x128 .f32) (x1 : FVec Ideal S1x128 .f32) : FVec Ideal S5000x128 .f32 :=
  addf (shapeCast S5000x128 x0 shapeCasts_S5000x128_S5000x128)
    (broadcastTo S5000x128 (shapeCast S1x128 x1 shapeCasts_S1x128_S1x128) broadcasts_S1x128_S5000x128)

/-- A parameter row laid along every row of the block. -/
def paramRows (x : FVec Ideal S1x128 .f32) : FVec Ideal S5000x128 .f32 :=
  broadcastTo S5000x128 (shapeCast S1x128 x shapeCasts_S1x128_S1x128) broadcasts_S1x128_S5000x128

/-- A laid-out parameter row at `(p, c)` is the row's entry `c`. -/
theorem paramRows_apply (x : FVec Ideal S1x128 .f32) (p : Fin 5000) (c : Fin 128) : paramRows x (ix2 p c) = x (ix2 (0 : Fin 1) c) := by
  unfold paramRows
  rw [shapeCast_self]
  exact broadcastTo_1b_ab_apply x _ p c

/-- The biased block at `(p, c)` is the block's entry plus the bias row's. -/
theorem biasedBlock_apply (x0 : FVec Ideal S5000x128 .f32) (x1 : FVec Ideal S1x128 .f32) (p : Fin 5000) (c : Fin 128) :
    biasedBlock x0 x1 (ix2 p c) = x0 (ix2 p c) + x1 (ix2 (0 : Fin 1) c) := by
  unfold biasedBlock
  rw [shapeCast_self, shapeCast_self, addf_apply]
  exact congrArg (x0 (ix2 p c) + ·) (broadcastTo_1b_ab_apply x1 _ p c)

/-! ## From the biased block on: mean, centring, variance, scale, shift, ELU -/

/-- The payload from the biased block `y` and the two laid-out parameter rows on. -/
def lnEluCore (y gB beB : FVec Ideal S5000x128 .f32) : FVec Ideal S5000x128 .f32 :=
  have v6 : FVec Ideal S5000 .f32 := multiReduction (F := Ideal) .add [1] S5000 y 0x00000000#32 reduces_S5000x128_S5000 (.inl rfl) rfl
  have v7 : FVec Ideal S5000x1 .f32 := shapeCast S5000x1 v6 shapeCasts_S5000_S5000x1
  have v8 : FVec Ideal S5000x1 .f32 := broadcast S5000x1 (Scalar.ofBits .f32 0x43000000#32)
  have v9 : FVec Ideal S5000x1 .f32 := divf v7 v8
  have v10 : FVec Ideal S5000x128 .f32 := broadcastTo S5000x128 v9 broadcasts_S5000x1_S5000x128
  have v11 : FVec Ideal S5000x128 .f32 := subf y v10
  have v12 : FVec Ideal S5000x128 .f32 := mulf v11 v11
  have v13 : FVec Ideal S5000 .f32 := multiReduction (F := Ideal) .add [1] S5000 v12 0x00000000#32 reduces_S5000x128_S5000 (.inl rfl) rfl
  have v14 : FVec Ideal S5000x1 .f32 := shapeCast S5000x1 v13 shapeCasts_S5000_S5000x1
  have v15 : FVec Ideal S5000x1 .f32 := broadcast S5000x1 (Scalar.ofBits .f32 0x43000000#32)
  have v16 : FVec Ideal S5000x1 .f32 := divf v14 v15
  have v17 : FVec Ideal S5000x1 .f32 := broadcast S5000x1 (Scalar.ofBits .f32 0x3727C5AC#32)
  have v18 : FVec Ideal S5000x1 .f32 := addf v16 v17
  have v19 : FVec Ideal S5000x1 .f32 := rsqrt v18
  have v20 : FVec Ideal S5000x128 .f32 := broadcastTo S5000x128 v19 broadcasts_S5000x1_S5000x128
  have v21 : FVec Ideal S5000x128 .f32 := mulf v11 v20
  have v25 : FVec Ideal S5000x128 .f32 := mulf v21 gB
  have v29 : FVec Ideal S5000x128 .f32 := addf v25 beB
  have v30 : FVec Ideal S5000x128 .f32 := broadcast S5000x128 (Scalar.ofBits .f32 0x00000000#32)
  have v31 : IVec S5000x128 1 := cmpf .ogt v29 v30
  have v32 : FVec Ideal S5000x128 .f32 := exp v29
  have v33 : FVec Ideal S5000x128 .f32 := broadcast S5000x128 (Scalar.ofBits .f32 0x3F800000#32)
  have v34 : FVec Ideal S5000x128 .f32 := subf v32 v33
  select v31 v29 v34

/-- Region 1's payload is that function of its biased block and laid-out rows. -/
theorem k1_pay1_eq (x0 : FVec Ideal S5000x128 .f32) (x1 x2 x3 : FVec Ideal S1x128 .f32) :
    k1_pay1 (F := Ideal) x0 x1 x2 x3 = lnEluCore (biasedBlock x0 x1) (paramRows x2) (paramRows x3) := rfl

/-- Region 3's payload likewise. -/
theorem k3_pay1_eq (x0 : FVec Ideal S5000x128 .f32) (x1 x2 x3 : FVec Ideal S1x128 .f32) :
    k3_pay1 (F := Ideal) x0 x1 x2 x3 = lnEluCore (biasedBlock x0 x1) (paramRows x2) (paramRows x3) := rfl

/-- Read at row `p` and feature `q`, with row `p` of `y` being `x + b` and the laid-out rows reading `g q` and `be q` there:
    the lane sums are the row's sums, so the mean, the centred row, the variance and the scaled, shifted entry are the
    row function's, and the word `1.0` is `1`. -/
theorem lnEluCore_apply (y gB beB : FVec Ideal S5000x128 .f32) (x b g be : Fin 128 → EReal) (p : Fin 5000) (q : Fin 128)
    (hy : ∀ k : Fin 128, y (ix2 p k) = x k + b k) (hg : gB (ix2 p q) = g q) (hbe : beB (ix2 p q) = be q) :
    lnEluCore y gB beB (ix2 p q) = rowLnElu x b g be q := by
  let n : EReal := Ideal.ofBits .f32 0x43000000#32
  let mu : EReal := Ideal.div (∑ k : Fin 128, (x k + b k)) n
  let var : EReal := Ideal.div (∑ k : Fin 128, (x k + b k - mu) * (x k + b k - mu)) n
  let v6 : FVec Ideal S5000 .f32 := multiReduction (F := Ideal) .add [1] S5000 y 0x00000000#32 reduces_S5000x128_S5000 (.inl rfl) rfl
  let v7 : FVec Ideal S5000x1 .f32 := shapeCast S5000x1 v6 shapeCasts_S5000_S5000x1
  let v9 : FVec Ideal S5000x1 .f32 := divf v7 (broadcast S5000x1 (Scalar.ofBits .f32 0x43000000#32))
  let v10 : FVec Ideal S5000x128 .f32 := broadcastTo S5000x128 v9 broadcasts_S5000x1_S5000x128
  let v11 : FVec Ideal S5000x128 .f32 := subf y v10
  let v12 : FVec Ideal S5000x128 .f32 := mulf v11 v11
  let v13 : FVec Ideal S5000 .f32 := multiReduction (F := Ideal) .add [1] S5000 v12 0x00000000#32 reduces_S5000x128_S5000 (.inl rfl) rfl
  let v14 : FVec Ideal S5000x1 .f32 := shapeCast S5000x1 v13 shapeCasts_S5000_S5000x1
  let v16 : FVec Ideal S5000x1 .f32 := divf v14 (broadcast S5000x1 (Scalar.ofBits .f32 0x43000000#32))
  let v18 : FVec Ideal S5000x1 .f32 := addf v16 (broadcast S5000x1 (Scalar.ofBits .f32 0x3727C5AC#32))
  let v19 : FVec Ideal S5000x1 .f32 := rsqrt v18
  let v20 : FVec Ideal S5000x128 .f32 := broadcastTo S5000x128 v19 broadcasts_S5000x1_S5000x128
  let v29 : FVec Ideal S5000x128 .f32 := addf (mulf (mulf v11 v20) gB) beB
  -- the mean
  have h6 : v6 (ix1 p) = ∑ k : Fin 128, (x k + b k) :=
    (laneSum_apply y _ _ _ p).trans (Finset.sum_congr rfl fun k _ => hy k)
  have h7 : v7 (ix2 p (0 : Fin 1)) = ∑ k : Fin 128, (x k + b k) := (shapeCast_a_a1_apply v6 _ p 0).trans h6
  have h9 : v9 (ix2 p (0 : Fin 1)) = mu := by
    show Ideal.div (v7 (ix2 p (0 : Fin 1))) (Ideal.ofBits .f32 0x43000000#32) = mu
    rw [h7]
  have h10 : ∀ c : Fin 128, v10 (ix2 p c) = mu := fun c => (broadcastTo_a1_ab_apply v9 _ p c).trans h9
  -- the centred row and its squares
  have h11 : ∀ c : Fin 128, v11 (ix2 p c) = x c + b c - mu := fun c => by
    show y (ix2 p c) - v10 (ix2 p c) = x c + b c - mu
    rw [hy, h10]
  have h12 : ∀ c : Fin 128, v12 (ix2 p c) = (x c + b c - mu) * (x c + b c - mu) := fun c => by
    show v11 (ix2 p c) * v11 (ix2 p c) = _
    rw [h11]
  -- the variance and the scale
  have h13 : v13 (ix1 p) = ∑ k : Fin 128, (x k + b k - mu) * (x k + b k - mu) :=
    (laneSum_apply v12 _ _ _ p).trans (Finset.sum_congr rfl fun k _ => h12 k)
  have h14 : v14 (ix2 p (0 : Fin 1)) = ∑ k : Fin 128, (x k + b k - mu) * (x k + b k - mu) :=
    (shapeCast_a_a1_apply v13 _ p 0).trans h13
  have h19 : v19 (ix2 p (0 : Fin 1)) = Ideal.rsqrt (var + Ideal.ofBits .f32 0x3727C5AC#32) := by
    show Ideal.rsqrt (Ideal.div (v14 (ix2 p (0 : Fin 1))) (Ideal.ofBits .f32 0x43000000#32) + Ideal.ofBits .f32 0x3727C5AC#32) = _
    rw [h14]
  have h20 : v20 (ix2 p q) = Ideal.rsqrt (var + Ideal.ofBits .f32 0x3727C5AC#32) :=
    (broadcastTo_a1_ab_apply v19 _ p q).trans h19
  -- the scaled, shifted entry
  have h29 : v29 (ix2 p q) = (x q + b q - mu) * Ideal.rsqrt (var + Ideal.ofBits .f32 0x3727C5AC#32) * g q + be q := by
    show v11 (ix2 p q) * v20 (ix2 p q) * gB (ix2 p q) + beB (ix2 p q) = _
    rw [h11, h20, hg, hbe]
  -- the ELU
  show Scalar.select (Ideal.cmp .ogt (v29 (ix2 p q)) (Ideal.ofBits .f32 0x00000000#32)) (v29 (ix2 p q))
      (Ideal.exp (v29 (ix2 p q)) - Ideal.ofBits .f32 0x3F800000#32) = _
  rw [h29, ofBits_f32_one]
  rfl

/-! ## The two regions' payloads -/

/-- Region 1's payload at row `p` of the block and feature `q`. -/
theorem pay1_apply (x0 : FVec Ideal S5000x128 .f32) (x1 x2 x3 : FVec Ideal S1x128 .f32) (p : Fin 5000) (q : Fin 128) :
    k1_pay1 (F := Ideal) x0 x1 x2 x3 (ix2 p q)
      = rowLnElu (fun k => x0 (ix2 p k)) (fun k => x1 (ix2 (0 : Fin 1) k)) (fun k => x2 (ix2 (0 : Fin 1) k)) (fun k => x3 (ix2 (0 : Fin 1) k)) q := by
  rw [k1_pay1_eq]
  exact lnEluCore_apply _ _ _ _ _ _ _ p q (fun k => biasedBlock_apply x0 x1 p k) (paramRows_apply x2 p q) (paramRows_apply x3 p q)

/-- Region 3's payload, the same function. -/
theorem pay3_apply (x0 : FVec Ideal S5000x128 .f32) (x1 x2 x3 : FVec Ideal S1x128 .f32) (p : Fin 5000) (q : Fin 128) :
    k3_pay1 (F := Ideal) x0 x1 x2 x3 (ix2 p q)
      = rowLnElu (fun k => x0 (ix2 p k)) (fun k => x1 (ix2 (0 : Fin 1) k)) (fun k => x2 (ix2 (0 : Fin 1) k)) (fun k => x3 (ix2 (0 : Fin 1) k)) q := by
  rw [k3_pay1_eq]
  exact lnEluCore_apply _ _ _ _ _ _ _ p q (fun k => biasedBlock_apply x0 x1 p k) (paramRows_apply x2 p q) (paramRows_apply x3 p q)

end Cert.KernelIdeal.LNPay

end
-- ==== Proof.LNVal.lean ====
import proofs.«123684_j32667521253433_1_alg».proof.Proof.Spec
import proofs.«123684_j32667521253433_1_alg».proof.Proof.LNRow
import proofs.«123684_j32667521253433_1_alg».proof.Proof.LNPay
import proofs.«123684_j32667521253433_1_alg».proof.Proof.Gen.KernelIdeal.Frame
import proofs.«123684_j32667521253433_1_alg».proof.Proof.Gen.ReferenceIdeal
import Idealize.ShloMosaic.Lib.ValueIdx
import Idealize.ShloMosaic.Lib.Pipeline.Value
import Idealize.ShloMosaic.PureOps.Ideal.Laws

noncomputable section

namespace Cert.KernelIdeal.LNVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offset of a rank-2 access, as the constant function. -/
theorem hz : (![0, 0] : Fin 2 → Nat) = fun _ => 0 := funext fun a => by fin_cases a <;> rfl

/-! ## The first bias + LayerNorm + ELU region -/

/-- The windows' block indices at grid point `t`, decided over the 10 points: the row windows (input 0 and the output) sit at
    block `(t, 0)`, the three parameter windows at block `(0, 0)` at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One grid point. A block `x0` of 5000 rows that are the rows `5000 t + p` of the array `A`, with the three one-row
    parameter blocks holding `b`, `g`, `be`: the body's result at block index `j` is the host's bias + LayerNorm + ELU of
    `A` at the array index `i` with row `5000 t + j₀` and feature `j₁`. Both sides are the one-row function of that row
    (LayerNorm is row-local). -/
theorem point1 (A : FVec Ideal S50000x128 .f32) (b g be : FVec Ideal S128 .f32)
    (x0 : FVec Ideal S5000x128 .f32) (x1 x2 x3 : FVec Ideal S1x128 .f32) (t : Nat)
    (h0 : ∀ (p : Fin 5000) (k : Fin 128) (i : S50000x128.Idx), (i 0).val = 5000 * t + p.val → (i 1).val = k.val → x0 (ix2 p k) = A i)
    (h1 : ∀ k : Fin 128, x1 (ix2 (0 : Fin 1) k) = b (ix1 k))
    (h2 : ∀ k : Fin 128, x2 (ix2 (0 : Fin 1) k) = g (ix1 k))
    (h3 : ∀ k : Fin 128, x3 (ix2 (0 : Fin 1) k) = be (ix1 k))
    (j : S5000x128.Idx) (i : S50000x128.Idx) (hi0 : (i 0).val = 5000 * t + (j 0).val) (hi1 : (i 1).val = (j 1).val) :
    k1_pay1 (F := Ideal) x0 x1 x2 x3 j = Cert.Spec.lnElu (F := Ideal) A b g be i := by
  obtain ⟨p, q, rfl⟩ : ∃ p q, j = ix2 p q := ⟨_, _, eq_ix2 j⟩
  obtain ⟨r, q', rfl⟩ : ∃ r q', i = ix2 r q' := ⟨_, _, eq_ix2 i⟩
  have hq : q' = q := Fin.ext hi1
  subst hq
  rw [LNPay.pay1_apply, Cert.LNRow.spec_apply]
  have e0 : (fun k => x0 (ix2 p k)) = fun k => A (ix2 r k) := funext fun k => h0 p k (ix2 r k) hi0 rfl
  rw [e0, funext h1, funext h2, funext h3]

/-- What grid point `t` writes back is block `t` of the host's bias + LayerNorm + ELU of the region's first input array:
    the body stores its payload over the whole output block; input block 0 is rows `[5000 t, 5000 t + 5000)` of the
    array (a block's coordinate is block index × block size + the coordinate inside the block), the parameter blocks
    are the whole one-row arrays, and the output block is the same rows of the output array. -/
theorem flushed1_eq (c : Dev nD) (b g be : FVec Ideal S128 .f32)
    (hb : ∀ k : Fin 128, V c main_v44 (ix2 (0 : Fin 1) k) = b (ix1 k))
    (hg : ∀ k : Fin 128, V c main_v45 (ix2 (0 : Fin 1) k) = g (ix1 k))
    (hbe : ∀ k : Fin 128, V c main_v46 (ix2 (0 : Fin 1) k) = be (ix1 k)) (t : Fin cfg1.N) :
    (dat1 (F := Ideal) V c).flushed 4 t
      = ((cfg1.win 4).blk t).view.read (Elt Ideal) (Cert.Spec.lnElu (F := Ideal) (V c main_v43) b g be) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S1x128) hz]
  obtain ⟨e00, e01, e10, e11, e20, e21, e30, e31, e40, e41⟩ := idx_facts1 t
  funext j
  show k1_pay1 (F := Ideal) (iblk1 V c 0 t) (iblk1 V c 1 t) (iblk1 V c 2 t) (iblk1 V c 3 t) j
    = Cert.Spec.lnElu (F := Ideal) (V c main_v43) b g be (((cfg1.win 4).blk t).view.emb j)
  refine point1 (V c main_v43) b g be (iblk1 V c 0 t) (iblk1 V c 1 t) (iblk1 V c 2 t) (iblk1 V c 3 t) t.val ?_ ?_ ?_ ?_ j _ ?_ ?_
  · intro p k i hi0 hi1
    show V c main_v43 (((cfg1.win 0).blk t).view.emb (ix2 p k)) = V c main_v43 i
    congr 1
    funext a; apply Fin.ext
    match a with
    | ⟨0, _⟩ => show win1_0.index t (0 : Fin 2) * 5000 + 1 * p.val = (i 0).val; omega
    | ⟨1, _⟩ => show win1_0.index t (1 : Fin 2) * 128 + 1 * k.val = (i 1).val; omega
  · intro k
    rw [← hb k]
    show V c main_v44 (((cfg1.win 1).blk t).view.emb (ix2 (0 : Fin 1) k)) = V c main_v44 (ix2 (0 : Fin 1) k)
    congr 1
    funext a; apply Fin.ext
    match a with
    | ⟨0, _⟩ => show win1_1.index t (0 : Fin 2) * 1 + 1 * 0 = 0; omega
    | ⟨1, _⟩ => show win1_1.index t (1 : Fin 2) * 128 + 1 * k.val = k.val; omega
  · intro k
    rw [← hg k]
    show V c main_v45 (((cfg1.win 2).blk t).view.emb (ix2 (0 : Fin 1) k)) = V c main_v45 (ix2 (0 : Fin 1) k)
    congr 1
    funext a; apply Fin.ext
    match a with
    | ⟨0, _⟩ => show win1_2.index t (0 : Fin 2) * 1 + 1 * 0 = 0; omega
    | ⟨1, _⟩ => show win1_2.index t (1 : Fin 2) * 128 + 1 * k.val = k.val; omega
  · intro k
    rw [← hbe k]
    show V c main_v46 (((cfg1.win 3).blk t).view.emb (ix2 (0 : Fin 1) k)) = V c main_v46 (ix2 (0 : Fin 1) k)
    congr 1
    funext a; apply Fin.ext
    match a with
    | ⟨0, _⟩ => show win1_3.index t (0 : Fin 2) * 1 + 1 * 0 = 0; omega
    | ⟨1, _⟩ => show win1_3.index t (1 : Fin 2) * 128 + 1 * k.val = k.val; omega
  · show win1_4.index t (0 : Fin 2) * 5000 + 1 * (j 0).val = 5000 * t.val + (j 0).val; omega
  · show win1_4.index t (1 : Fin 2) * 128 + 1 * (j 1).val = (j 1).val; omega

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v47).slice (win1_4.rect t)).set ↔ _
  rw [View.set_slice_whole, Rect.mem_set_unit]
  exact Iff.rfl

/-- The ten blocks of 5000 rows cover the 50000 rows: row `r` is in the block of point `r / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN := N_1
  let t : Fin cfg1.N := ⟨(i 0).val / 5000, by show (i 0).val / 5000 < grid1.N; omega⟩
  obtain ⟨e00, e01, e10, e11, e20, e21, e30, e31, e40, e41⟩ := idx_facts1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The first bias + LayerNorm + ELU region: if its three one-row parameter arrays hold the vectors `b`, `g`, `be`, its
    output array ends holding the host's bias + LayerNorm + ELU of its first input array. -/
theorem region1 (c : Dev nD) (b g be : FVec Ideal S128 .f32)
    (hb : ∀ k : Fin 128, V c main_v44 (ix2 (0 : Fin 1) k) = b (ix1 k))
    (hg : ∀ k : Fin 128, V c main_v45 (ix2 (0 : Fin 1) k) = g (ix1 k))
    (hbe : ∀ k : Fin 128, V c main_v46 (ix2 (0 : Fin 1) k) = be (ix1 k)) :
    (dat1 (F := Ideal) V c).arrAt 4 cfg1.N = Cert.Spec.lnElu (F := Ideal) (V c main_v43) b g be :=
  (dat1 (F := Ideal) V c).arrAt_eq_of_cover 4 _ (fun t _ => flushed1_eq V c b g be hb hg hbe t) cover1

/-! ## The second bias + LayerNorm + ELU region -/

/-- The windows' block indices at grid point `t`, decided over the 10 points: the row windows (input 0 and the output) sit at
    block `(t, 0)`, the three parameter windows at block `(0, 0)` at every point. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One grid point. A block `x0` of 5000 rows that are the rows `5000 t + p` of the array `A`, with the three one-row
    parameter blocks holding `b`, `g`, `be`: the body's result at block index `j` is the host's bias + LayerNorm + ELU of
    `A` at the array index `i` with row `5000 t + j₀` and feature `j₁`. Both sides are the one-row function of that row
    (LayerNorm is row-local). -/
theorem point3 (A : FVec Ideal S50000x128 .f32) (b g be : FVec Ideal S128 .f32)
    (x0 : FVec Ideal S5000x128 .f32) (x1 x2 x3 : FVec Ideal S1x128 .f32) (t : Nat)
    (h0 : ∀ (p : Fin 5000) (k : Fin 128) (i : S50000x128.Idx), (i 0).val = 5000 * t + p.val → (i 1).val = k.val → x0 (ix2 p k) = A i)
    (h1 : ∀ k : Fin 128, x1 (ix2 (0 : Fin 1) k) = b (ix1 k))
    (h2 : ∀ k : Fin 128, x2 (ix2 (0 : Fin 1) k) = g (ix1 k))
    (h3 : ∀ k : Fin 128, x3 (ix2 (0 : Fin 1) k) = be (ix1 k))
    (j : S5000x128.Idx) (i : S50000x128.Idx) (hi0 : (i 0).val = 5000 * t + (j 0).val) (hi1 : (i 1).val = (j 1).val) :
    k3_pay1 (F := Ideal) x0 x1 x2 x3 j = Cert.Spec.lnElu (F := Ideal) A b g be i := by
  obtain ⟨p, q, rfl⟩ : ∃ p q, j = ix2 p q := ⟨_, _, eq_ix2 j⟩
  obtain ⟨r, q', rfl⟩ : ∃ r q', i = ix2 r q' := ⟨_, _, eq_ix2 i⟩
  have hq : q' = q := Fin.ext hi1
  subst hq
  rw [LNPay.pay3_apply, Cert.LNRow.spec_apply]
  have e0 : (fun k => x0 (ix2 p k)) = fun k => A (ix2 r k) := funext fun k => h0 p k (ix2 r k) hi0 rfl
  rw [e0, funext h1, funext h2, funext h3]

/-- What grid point `t` writes back is block `t` of the host's bias + LayerNorm + ELU of the region's first input array:
    the body stores its payload over the whole output block; input block 0 is rows `[5000 t, 5000 t + 5000)` of the
    array (a block's coordinate is block index × block size + the coordinate inside the block), the parameter blocks
    are the whole one-row arrays, and the output block is the same rows of the output array. -/
theorem flushed3_eq (c : Dev nD) (b g be : FVec Ideal S128 .f32)
    (hb : ∀ k : Fin 128, V c main_v62 (ix2 (0 : Fin 1) k) = b (ix1 k))
    (hg : ∀ k : Fin 128, V c main_v63 (ix2 (0 : Fin 1) k) = g (ix1 k))
    (hbe : ∀ k : Fin 128, V c main_v64 (ix2 (0 : Fin 1) k) = be (ix1 k)) (t : Fin cfg3.N) :
    (dat3 (F := Ideal) V c).flushed 4 t
      = ((cfg3.win 4).blk t).view.read (Elt Ideal) (Cert.Spec.lnElu (F := Ideal) (V c main_v61) b g be) := by
  show (cfg3.win 4).cut (grid3.coords t) ((dat3 (F := Ideal) V c).after 4 t) = _
  rw [after3_4]
  unfold out3_4
  rw [View.canon_unit_zero hz]
  simp only [View.ld_unit_zero (S := S5000x128) hz, View.ld_unit_zero (S := S1x128) hz]
  obtain ⟨e00, e01, e10, e11, e20, e21, e30, e31, e40, e41⟩ := idx_facts3 t
  funext j
  show k3_pay1 (F := Ideal) (iblk3 V c 0 t) (iblk3 V c 1 t) (iblk3 V c 2 t) (iblk3 V c 3 t) j
    = Cert.Spec.lnElu (F := Ideal) (V c main_v61) b g be (((cfg3.win 4).blk t).view.emb j)
  refine point3 (V c main_v61) b g be (iblk3 V c 0 t) (iblk3 V c 1 t) (iblk3 V c 2 t) (iblk3 V c 3 t) t.val ?_ ?_ ?_ ?_ j _ ?_ ?_
  · intro p k i hi0 hi1
    show V c main_v61 (((cfg3.win 0).blk t).view.emb (ix2 p k)) = V c main_v61 i
    congr 1
    funext a; apply Fin.ext
    match a with
    | ⟨0, _⟩ => show win3_0.index t (0 : Fin 2) * 5000 + 1 * p.val = (i 0).val; omega
    | ⟨1, _⟩ => show win3_0.index t (1 : Fin 2) * 128 + 1 * k.val = (i 1).val; omega
  · intro k
    rw [← hb k]
    show V c main_v62 (((cfg3.win 1).blk t).view.emb (ix2 (0 : Fin 1) k)) = V c main_v62 (ix2 (0 : Fin 1) k)
    congr 1
    funext a; apply Fin.ext
    match a with
    | ⟨0, _⟩ => show win3_1.index t (0 : Fin 2) * 1 + 1 * 0 = 0; omega
    | ⟨1, _⟩ => show win3_1.index t (1 : Fin 2) * 128 + 1 * k.val = k.val; omega
  · intro k
    rw [← hg k]
    show V c main_v63 (((cfg3.win 2).blk t).view.emb (ix2 (0 : Fin 1) k)) = V c main_v63 (ix2 (0 : Fin 1) k)
    congr 1
    funext a; apply Fin.ext
    match a with
    | ⟨0, _⟩ => show win3_2.index t (0 : Fin 2) * 1 + 1 * 0 = 0; omega
    | ⟨1, _⟩ => show win3_2.index t (1 : Fin 2) * 128 + 1 * k.val = k.val; omega
  · intro k
    rw [← hbe k]
    show V c main_v64 (((cfg3.win 3).blk t).view.emb (ix2 (0 : Fin 1) k)) = V c main_v64 (ix2 (0 : Fin 1) k)
    congr 1
    funext a; apply Fin.ext
    match a with
    | ⟨0, _⟩ => show win3_3.index t (0 : Fin 2) * 1 + 1 * 0 = 0; omega
    | ⟨1, _⟩ => show win3_3.index t (1 : Fin 2) * 128 + 1 * k.val = k.val; omega
  · show win3_4.index t (0 : Fin 2) * 5000 + 1 * (j 0).val = 5000 * t.val + (j 0).val; omega
  · show win3_4.index t (1 : Fin 2) * 128 + 1 * (j 1).val = (j 1).val; omega

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v65).slice (win3_4.rect t)).set ↔ _
  rw [View.set_slice_whole, Rect.mem_set_unit]
  exact Iff.rfl

/-- The ten blocks of 5000 rows cover the 50000 rows: row `r` is in the block of point `r / 5000`. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN := N_3
  let t : Fin cfg3.N := ⟨(i 0).val / 5000, by show (i 0).val / 5000 < grid3.N; omega⟩
  obtain ⟨e00, e01, e10, e11, e20, e21, e30, e31, e40, e41⟩ := idx_facts3 t
  have ht : t.val = (i 0).val / 5000 := rfl
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The second such region, likewise. -/
theorem region3 (c : Dev nD) (b g be : FVec Ideal S128 .f32)
    (hb : ∀ k : Fin 128, V c main_v62 (ix2 (0 : Fin 1) k) = b (ix1 k))
    (hg : ∀ k : Fin 128, V c main_v63 (ix2 (0 : Fin 1) k) = g (ix1 k))
    (hbe : ∀ k : Fin 128, V c main_v64 (ix2 (0 : Fin 1) k) = be (ix1 k)) :
    (dat3 (F := Ideal) V c).arrAt 4 cfg3.N = Cert.Spec.lnElu (F := Ideal) (V c main_v61) b g be :=
  (dat3 (F := Ideal) V c).arrAt_eq_of_cover 4 _ (fun t _ => flushed3_eq V c b g be hb hg hbe t) cover3

end Cert.KernelIdeal.LNVal

end
-- ==== Proof.HostVal.lean ====
import proofs.«123684_j32667521253433_1_alg».proof.Proof.Spec
import proofs.«123684_j32667521253433_1_alg».proof.Proof.MMVal
import proofs.«123684_j32667521253433_1_alg».proof.Proof.HostPre
import proofs.«123684_j32667521253433_1_alg».proof.Proof.LNVal
import Idealize.ShloMosaic.Lib.StableHlo.Run
import Idealize.ShloMosaic.Lib.ValueLayout

noncomputable section

namespace Cert.KernelIdeal.HostVal

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ) (ρ : Dev nD → PrngReg)

/-! ## The two host stretches between the regions, from any contents `X` -/

section Host

variable (X : Valuation τ sig (Elt Ideal))

/-- The buffers the first stretch writes. -/
def wr1 : List (Ref sig .tc) :=
  [main_c_6, main_v31, main_v32, main_c_7, main_v33, main_v34, main_v35, main_v36, main_v37, main_v38, main_v39, main_v40,
   main_cst_8, main_v41, main_v42, main_v43, main_v44, main_v45, main_v46]

/-- The buffers the second stretch writes. -/
def wr3 : List (Ref sig .tc) :=
  [main_c_9, main_v49, main_v50, main_c_10, main_v51, main_v52, main_v53, main_v54, main_v55, main_v56, main_v57, main_v58,
   main_cst_11, main_v59, main_v60, main_v61, main_v62, main_v63, main_v64]

/-- A buffer the first stretch does not write keeps its contents. -/
theorem keep1 (b : Ref sig .tc) (hb : b ∉ wr1) :
    StableHlo.after (hostOps1 (F := Ideal)) X (Proc.devRef .tc b) = X (Proc.devRef .tc b) :=
  StableHlo.after_of_writes_sub (W := wr1) _ _ (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- A buffer the second stretch does not write keeps its contents. -/
theorem keep3 (b : Ref sig .tc) (hb : b ∉ wr3) :
    StableHlo.after (hostOps3 (F := Ideal)) X (Proc.devRef .tc b) = X (Proc.devRef .tc b) :=
  StableHlo.after_of_writes_sub (W := wr3) _ _ (by
    simp only [hostOps3, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

set_option maxHeartbeats 1000000 in
/-- The first stretch leaves, in the first normalisation's input, the neighbourhood sum of the first product's rows:
    the gather index is the sources wrapped, the scatter index the destinations, the scale the edge weights. -/
theorem agg1 :
    StableHlo.after (hostOps1 (F := Ideal)) X (Proc.devRef .tc main_v43) =
      Cert.Spec.agg (F := Ideal) (X (Proc.devRef .tc main_v30)) (X (Proc.devRef .tc main_v3)) (X (Proc.devRef .tc main_v6)) (X (Proc.devRef .tc main_v29)) := by
  simp only [hostOps1]
  after_results_simp
  unfold Cert.Spec.agg Cert.Spec.wrapCol
  rfl

set_option maxHeartbeats 1000000 in
/-- The second stretch leaves, in the second normalisation's input, the neighbourhood sum of the second product's rows. -/
theorem agg3 :
    StableHlo.after (hostOps3 (F := Ideal)) X (Proc.devRef .tc main_v61) =
      Cert.Spec.agg (F := Ideal) (X (Proc.devRef .tc main_v48)) (X (Proc.devRef .tc main_v3)) (X (Proc.devRef .tc main_v6)) (X (Proc.devRef .tc main_v29)) := by
  simp only [hostOps3]
  after_results_simp
  unfold Cert.Spec.agg Cert.Spec.wrapCol
  rfl

/-! Each stretch's three one-row parameter arrays are its parameter vectors with a unit axis put in front: row 0,
    column `k` reads the vector at `k`. -/

set_option maxHeartbeats 1000000 in
theorem par1_3 (k : Fin 128) :
    StableHlo.after (hostOps1 (F := Ideal)) X (Proc.devRef .tc main_v44) (ix2 (0 : Fin 1) k) = X (Proc.devRef .tc main_arg3) (ix1 k) := by
  have h : StableHlo.after (hostOps1 (F := Ideal)) X (Proc.devRef .tc main_v44)
      = fun i => shapeCast S1x128 (X (Proc.devRef .tc main_arg3)) shapeCasts_S128_S1x128 i := by
    simp only [hostOps1]
    after_results_simp
    rfl
  rw [h]
  exact shapeCast_a_1a_apply _ _ 0 k

set_option maxHeartbeats 1000000 in
theorem par1_4 (k : Fin 128) :
    StableHlo.after (hostOps1 (F := Ideal)) X (Proc.devRef .tc main_v45) (ix2 (0 : Fin 1) k) = X (Proc.devRef .tc main_arg4) (ix1 k) := by
  have h : StableHlo.after (hostOps1 (F := Ideal)) X (Proc.devRef .tc main_v45)
      = fun i => shapeCast S1x128 (X (Proc.devRef .tc main_arg4)) shapeCasts_S128_S1x128 i := by
    simp only [hostOps1]
    after_results_simp
    rfl
  rw [h]
  exact shapeCast_a_1a_apply _ _ 0 k

set_option maxHeartbeats 1000000 in
theorem par1_5 (k : Fin 128) :
    StableHlo.after (hostOps1 (F := Ideal)) X (Proc.devRef .tc main_v46) (ix2 (0 : Fin 1) k) = X (Proc.devRef .tc main_arg5) (ix1 k) := by
  have h : StableHlo.after (hostOps1 (F := Ideal)) X (Proc.devRef .tc main_v46)
      = fun i => shapeCast S1x128 (X (Proc.devRef .tc main_arg5)) shapeCasts_S128_S1x128 i := by
    simp only [hostOps1]
    after_results_simp
    rfl
  rw [h]
  exact shapeCast_a_1a_apply _ _ 0 k

set_option maxHeartbeats 1000000 in
theorem par3_7 (k : Fin 128) :
    StableHlo.after (hostOps3 (F := Ideal)) X (Proc.devRef .tc main_v62) (ix2 (0 : Fin 1) k) = X (Proc.devRef .tc main_arg7) (ix1 k) := by
  have h : StableHlo.after (hostOps3 (F := Ideal)) X (Proc.devRef .tc main_v62)
      = fun i => shapeCast S1x128 (X (Proc.devRef .tc main_arg7)) shapeCasts_S128_S1x128 i := by
    simp only [hostOps3]
    after_results_simp
    rfl
  rw [h]
  exact shapeCast_a_1a_apply _ _ 0 k

set_option maxHeartbeats 1000000 in
theorem par3_8 (k : Fin 128) :
    StableHlo.after (hostOps3 (F := Ideal)) X (Proc.devRef .tc main_v63) (ix2 (0 : Fin 1) k) = X (Proc.devRef .tc main_arg8) (ix1 k) := by
  have h : StableHlo.after (hostOps3 (F := Ideal)) X (Proc.devRef .tc main_v63)
      = fun i => shapeCast S1x128 (X (Proc.devRef .tc main_arg8)) shapeCasts_S128_S1x128 i := by
    simp only [hostOps3]
    after_results_simp
    rfl
  rw [h]
  exact shapeCast_a_1a_apply _ _ 0 k

set_option maxHeartbeats 1000000 in
theorem par3_9 (k : Fin 128) :
    StableHlo.after (hostOps3 (F := Ideal)) X (Proc.devRef .tc main_v64) (ix2 (0 : Fin 1) k) = X (Proc.devRef .tc main_arg9) (ix1 k) := by
  have h : StableHlo.after (hostOps3 (F := Ideal)) X (Proc.devRef .tc main_v64)
      = fun i => shapeCast S1x128 (X (Proc.devRef .tc main_arg9)) shapeCasts_S128_S1x128 i := by
    simp only [hostOps3]
    after_results_simp
    rfl
  rw [h]
  exact shapeCast_a_1a_apply _ _ 0 k

end Host

/-! ## The contents at the segment boundaries -/

section Run

variable (c : Dev nD)

/-- The argument arrays as launched. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)

/-- A buffer that is no array of the first three regions and that the first stretch does not write holds at the
    third region's exit what it held at the first region's entry. -/
theorem W4_keep (b : Ref sig .tc) (h0 : ∀ w, Pipeline.arrRef spec0 w ≠ b) :
    W4 m ρ c (Proc.devRef .tc b) = W3 m ρ c (Proc.devRef .tc b) := W4_of_ne m ρ c b h0
theorem W5_keep (b : Ref sig .tc) (h0 : ∀ w, Pipeline.arrRef spec0 w ≠ b) (h1 : b ∉ wr1) :
    W5 m ρ c (Proc.devRef .tc b) = W3 m ρ c (Proc.devRef .tc b) :=
  (keep1 (W4 m ρ c) b h1).trans (W4_keep m ρ c b h0)
theorem W6_keep (b : Ref sig .tc) (h0 : ∀ w, Pipeline.arrRef spec0 w ≠ b) (h1 : b ∉ wr1) (h2 : ∀ w, Pipeline.arrRef spec1 w ≠ b) :
    W6 m ρ c (Proc.devRef .tc b) = W3 m ρ c (Proc.devRef .tc b) :=
  (W6_of_ne m ρ c b h2).trans (W5_keep m ρ c b h0 h1)
theorem W7_keep (b : Ref sig .tc) (h0 : ∀ w, Pipeline.arrRef spec0 w ≠ b) (h1 : b ∉ wr1) (h2 : ∀ w, Pipeline.arrRef spec1 w ≠ b)
    (h3 : ∀ w, Pipeline.arrRef spec2 w ≠ b) :
    W7 m ρ c (Proc.devRef .tc b) = W3 m ρ c (Proc.devRef .tc b) :=
  (W7_of_ne m ρ c b h3).trans (W6_keep m ρ c b h0 h1 h2)

/-- The first product. -/
theorem W4_v30 : W4 m ρ c (Proc.devRef .tc main_v30) = Cert.Spec.mm (F := Ideal) (A0 m c) (A2 m c) := by
  refine (W4_arr m ρ c 2).trans ?_
  refine (MMVal.region0 (V3 m ρ) c).trans ?_
  show Cert.Spec.mm (F := Ideal) (W3 m ρ c (Proc.devRef .tc main_arg0)) (W3 m ρ c (Proc.devRef .tc main_arg2)) = _
  rw [HostPre.W3_arg0, HostPre.W3_arg2]

/-- Its neighbourhood sum. -/
theorem W5_v43 : W5 m ρ c (Proc.devRef .tc main_v43) =
    Cert.Spec.agg (F := Ideal) (Cert.Spec.mm (F := Ideal) (A0 m c) (A2 m c)) (Cert.Spec.srcOf (A1 m c)) (Cert.Spec.dstOf (A1 m c))
      (Cert.Spec.normOf (F := Ideal) (A1 m c)) := by
  refine (agg1 (W4 m ρ c)).trans ?_
  rw [W4_v30, W4_keep m ρ c main_v3 (by decide), W4_keep m ρ c main_v6 (by decide), W4_keep m ρ c main_v29 (by decide),
    HostPre.W3_src, HostPre.W3_dst, HostPre.W3_norm]

/-- The first layer. -/
theorem W6_v47 : W6 m ρ c (Proc.devRef .tc main_v47) =
    Cert.Spec.layer (F := Ideal) (A0 m c) (A1 m c) (A2 m c) (A3 m c) (A4 m c) (A5 m c) := by
  refine (W6_arr m ρ c 4).trans ?_
  refine (LNVal.region1 (V5 m ρ) c (A3 m c) (A4 m c) (A5 m c)
    (fun k => (par1_3 (W4 m ρ c) k).trans (by rw [W4_keep m ρ c main_arg3 (by decide), HostPre.W3_arg3]))
    (fun k => (par1_4 (W4 m ρ c) k).trans (by rw [W4_keep m ρ c main_arg4 (by decide), HostPre.W3_arg4]))
    (fun k => (par1_5 (W4 m ρ c) k).trans (by rw [W4_keep m ρ c main_arg5 (by decide), HostPre.W3_arg5]))).trans ?_
  show Cert.Spec.lnElu (F := Ideal) (W5 m ρ c (Proc.devRef .tc main_v43)) _ _ _ = _
  rw [W5_v43]
  rfl

/-- The second product. -/
theorem W7_v48 : W7 m ρ c (Proc.devRef .tc main_v48) =
    Cert.Spec.mm (F := Ideal) (Cert.Spec.layer (F := Ideal) (A0 m c) (A1 m c) (A2 m c) (A3 m c) (A4 m c) (A5 m c)) (A6 m c) := by
  refine (W7_arr m ρ c 2).trans ?_
  refine (MMVal.region2 (V6 m ρ) c).trans ?_
  show Cert.Spec.mm (F := Ideal) (W6 m ρ c (Proc.devRef .tc main_v47)) (W6 m ρ c (Proc.devRef .tc main_arg6)) = _
  rw [W6_v47, W6_keep m ρ c main_arg6 (by decide) (by decide) (by decide), HostPre.W3_arg6]

/-- Its neighbourhood sum. -/
theorem W8_v61 : W8 m ρ c (Proc.devRef .tc main_v61) =
    Cert.Spec.agg (F := Ideal)
      (Cert.Spec.mm (F := Ideal) (Cert.Spec.layer (F := Ideal) (A0 m c) (A1 m c) (A2 m c) (A3 m c) (A4 m c) (A5 m c)) (A6 m c))
      (Cert.Spec.srcOf (A1 m c)) (Cert.Spec.dstOf (A1 m c)) (Cert.Spec.normOf (F := Ideal) (A1 m c)) := by
  refine (agg3 (W7 m ρ c)).trans ?_
  rw [W7_v48, W7_keep m ρ c main_v3 (by decide) (by decide) (by decide) (by decide),
    W7_keep m ρ c main_v6 (by decide) (by decide) (by decide) (by decide),
    W7_keep m ρ c main_v29 (by decide) (by decide) (by decide) (by decide),
    HostPre.W3_src, HostPre.W3_dst, HostPre.W3_norm]

end Run

/-- The result buffer's contents at the last segment boundary: the two-layer block of the argument arrays. -/
theorem W9_result (c : Dev nD) :
    W9 (F := Ideal) m ρ c (Proc.devRef .tc main_v65) = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W9_arr m ρ c 4).trans ?_
  refine (LNVal.region3 (V8 m ρ) c (A7 m c) (A8 m c) (A9 m c)
    (fun k => (par3_7 (W7 m ρ c) k).trans (by rw [W7_keep m ρ c main_arg7 (by decide) (by decide) (by decide) (by decide), HostPre.W3_arg7]))
    (fun k => (par3_8 (W7 m ρ c) k).trans (by rw [W7_keep m ρ c main_arg8 (by decide) (by decide) (by decide) (by decide), HostPre.W3_arg8]))
    (fun k => (par3_9 (W7 m ρ c) k).trans (by rw [W7_keep m ρ c main_arg9 (by decide) (by decide) (by decide) (by decide), HostPre.W3_arg9]))).trans ?_
  show Cert.Spec.lnElu (F := Ideal) (W8 m ρ c (Proc.devRef .tc main_v61)) _ _ _ = _
  rw [W8_v61]
  rfl

end Cert.KernelIdeal.HostVal

end
-- ==== Proof.RefOps.lean ====
import proofs.«123684_j32667521253433_1_alg».proof.ReferenceIdeal
import Idealize.ShloMosaic.Lib.StableHlo.Run

noncomputable section

namespace Cert.ReferenceIdeal.RefOps

open Idealize.ShloMosaic Cert.ReferenceIdeal

variable {F : FTy → Type} [FloatOps F] [Facts]
open Facts₀ Facts

/-- The edge list with self-loops, the degrees, and the edge weights (main_v0 … main_v29). 40 operations. -/
abbrev p0a : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v12) (.of main_v13) main_call0.v1 main_call0.v2 select,
    StableHlo.nullary main_c (constantI S_ 32 0#32),
    StableHlo.unary main_c main_v15 (broadcastInDim S1650000 ![] bcast_S_S1650000 : (⟨S_, .i32⟩ : BufTy).Contents (Elt F) → (⟨S1650000, .i32⟩ : BufTy).Contents (Elt F)),
    StableHlo.binary main_v3 main_v15 main_v16 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v17 (broadcastInDim S1650000 ![] bcast_S_S1650000 : (⟨S_, .i32⟩ : BufTy).Contents (Elt F) → (⟨S1650000, .i32⟩ : BufTy).Contents (Elt F)),
    StableHlo.binary main_v3 main_v17 main_v18 (addi : (⟨S1650000, .i32⟩ : BufTy).Contents (Elt F) → (⟨S1650000, .i32⟩ : BufTy).Contents (Elt F) → (⟨S1650000, .i32⟩ : BufTy).Contents (Elt F)),
    StableHlo.ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v19 main_v20 (broadcastInDim S1650000x1 ![0] bcast_S1650000_S1650000x1_0 : (⟨S1650000, .i32⟩ : BufTy).Contents (Elt F) → (⟨S1650000x1, .i32⟩ : BufTy).Contents (Elt F)),
    StableHlo.binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_4 (constantI S_ 32 0#32),
    StableHlo.unary main_c_4 main_v22 (broadcastInDim S1650000 ![] bcast_S_S1650000 : (⟨S_, .i32⟩ : BufTy).Contents (Elt F) → (⟨S1650000, .i32⟩ : BufTy).Contents (Elt F)),
    StableHlo.binary main_v6 main_v22 main_v23 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v24 (broadcastInDim S1650000 ![] bcast_S_S1650000 : (⟨S_, .i32⟩ : BufTy).Contents (Elt F) → (⟨S1650000, .i32⟩ : BufTy).Contents (Elt F)),
    StableHlo.binary main_v6 main_v24 main_v25 (addi : (⟨S1650000, .i32⟩ : BufTy).Contents (Elt F) → (⟨S1650000, .i32⟩ : BufTy).Contents (Elt F) → (⟨S1650000, .i32⟩ : BufTy).Contents (Elt F)),
    StableHlo.ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v26 main_v27 (broadcastInDim S1650000x1 ![0] bcast_S1650000_S1650000x1_0 : (⟨S1650000, .i32⟩ : BufTy).Contents (Elt F) → (⟨S1650000x1, .i32⟩ : BufTy).Contents (Elt F)),
    StableHlo.binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v21 main_v28 main_v29 (mulf : (⟨S1650000, .f32⟩ : BufTy).Contents (Elt F) → (⟨S1650000, .f32⟩ : BufTy).Contents (Elt F) → (⟨S1650000, .f32⟩ : BufTy).Contents (Elt F)) ]

/-- Layer 1: the dense product and the neighbourhood sum (main_v30 … main_v43). 17 operations. -/
abbrev p0b : List (HloOp τ sig (Elt F)) :=
  [ StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S1650000 ![] bcast_S_S1650000 : (⟨S_, .i32⟩ : BufTy).Contents (Elt F) → (⟨S1650000, .i32⟩ : BufTy).Contents (Elt F)),
    StableHlo.binary main_v3 main_v31 main_v32 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v33 (broadcastInDim S1650000 ![] bcast_S_S1650000 : (⟨S_, .i32⟩ : BufTy).Contents (Elt F) → (⟨S1650000, .i32⟩ : BufTy).Contents (Elt F)),
    StableHlo.binary main_v3 main_v33 main_v34 (addi : (⟨S1650000, .i32⟩ : BufTy).Contents (Elt F) → (⟨S1650000, .i32⟩ : BufTy).Contents (Elt F) → (⟨S1650000, .i32⟩ : BufTy).Contents (Elt F)),
    StableHlo.ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v35 main_v36 (broadcastInDim S1650000x1 ![0] bcast_S1650000_S1650000x1_0 : (⟨S1650000, .i32⟩ : BufTy).Contents (Elt F) → (⟨S1650000x1, .i32⟩ : BufTy).Contents (Elt F)),
    StableHlo.binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v38 (broadcastInDim S1650000x1 ![0] bcast_S1650000_S1650000x1_0 : (⟨S1650000, .f32⟩ : BufTy).Contents (Elt F) → (⟨S1650000x1, .f32⟩ : BufTy).Contents (Elt F)),
    StableHlo.unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S1650000x1 ![0] bcast_S1650000_S1650000x1_0 : (⟨S1650000, .i32⟩ : BufTy).Contents (Elt F) → (⟨S1650000x1, .i32⟩ : BufTy).Contents (Elt F)),
    StableHlo.ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Layer 1: the bias and the first row sum (main_v44 … main_v47). 5 operations. -/
abbrev p0c : List (HloOp τ sig (Elt F)) :=
  [ StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v46 main_cst_9 main_v47 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) ]

/-- Layer 1: the mean, the variance, the normalisation, scale, shift and ELU (main_v48 … main_v65). 57 operations. -/
abbrev p1a : List (HloOp τ sig (Elt F)) :=
  [ StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.nullary main_cst_10 (constant S_ .f32 0x43000000#32),
    StableHlo.unary main_cst_10 main_v49 (broadcastInDim S50000x1 ![] bcast_S_S50000x1 : (⟨S_, .f32⟩ : BufTy).Contents (Elt F) → (⟨S50000x1, .f32⟩ : BufTy).Contents (Elt F)),
    StableHlo.binary main_v48 main_v49 main_v50 (Host.divf : (⟨S50000x1, .f32⟩ : BufTy).Contents (Elt F) → (⟨S50000x1, .f32⟩ : BufTy).Contents (Elt F) → (⟨S50000x1, .f32⟩ : BufTy).Contents (Elt F)),
    StableHlo.nullary main_c_11 (constantI S_ 32 0#32),
    StableHlo.TRef.nullary main_call1.cst (constant S_ .f32 0x00000000#32),
    StableHlo.TRef.binary (.of main_v46) main_call1.cst main_call1.v0 (fun x v => Host.reduceAdd x v reducesTo_S50000x128_S50000_d1 h_S_),
    StableHlo.TRef.unary main_call1.v0 main_call1.v1 (broadcastInDim S50000x1 ![0] bcast_S50000_S50000x1_0),
    StableHlo.TRef.nullary main_call1.cst_0 (constant S_ .f32 0x43000000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x128 ![0, 1] bcast_S50000x1_S50000x128_0_1),
    StableHlo.TRef.binary (.of main_v46) main_call1.v4 main_call1.v5 subf,
    StableHlo.TRef.binary main_call1.v5 main_call1.v5 main_call1.v6 mulf,
    StableHlo.TRef.unary (.of main_c_11) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b),
    StableHlo.unary main_v50 main_v52 (broadcastInDim S50000x128 ![0, 1] bcast_S50000x1_S50000x128_0_1 : (⟨S50000x1, .f32⟩ : BufTy).Contents (Elt F) → (⟨S50000x128, .f32⟩ : BufTy).Contents (Elt F)),
    StableHlo.binary main_v46 main_v52 main_v53 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v54 (broadcastInDim S50000x1 ![] bcast_S_S50000x1 : (⟨S_, .f32⟩ : BufTy).Contents (Elt F) → (⟨S50000x1, .f32⟩ : BufTy).Contents (Elt F)),
    StableHlo.binary main_v51 main_v54 main_v55 (addf : (⟨S50000x1, .f32⟩ : BufTy).Contents (Elt F) → (⟨S50000x1, .f32⟩ : BufTy).Contents (Elt F) → (⟨S50000x1, .f32⟩ : BufTy).Contents (Elt F)),
    StableHlo.unary main_v55 main_v56 (Host.rsqrt : (⟨S50000x1, .f32⟩ : BufTy).Contents (Elt F) → (⟨S50000x1, .f32⟩ : BufTy).Contents (Elt F)),
    StableHlo.unary main_v56 main_v57 (broadcastInDim S50000x128 ![0, 1] bcast_S50000x1_S50000x128_0_1 : (⟨S50000x1, .f32⟩ : BufTy).Contents (Elt F) → (⟨S50000x128, .f32⟩ : BufTy).Contents (Elt F)),
    StableHlo.binary main_v53 main_v57 main_v58 (mulf : (⟨S50000x128, .f32⟩ : BufTy).Contents (Elt F) → (⟨S50000x128, .f32⟩ : BufTy).Contents (Elt F) → (⟨S50000x128, .f32⟩ : BufTy).Contents (Elt F)),
    StableHlo.unary main_arg4 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (mulf : (⟨S50000x128, .f32⟩ : BufTy).Contents (Elt F) → (⟨S50000x128, .f32⟩ : BufTy).Contents (Elt F) → (⟨S50000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v64) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v64) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v64) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v64) main_call2.v7 main_call2.call1.v0 select ]

/-- Layer 2: the dense product and the neighbourhood sum (main_v66 … main_v79). 17 operations. -/
abbrev p1b : List (HloOp τ sig (Elt F)) :=
  [ StableHlo.binary main_v65 main_arg6 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v67 (broadcastInDim S1650000 ![] bcast_S_S1650000 : (⟨S_, .i32⟩ : BufTy).Contents (Elt F) → (⟨S1650000, .i32⟩ : BufTy).Contents (Elt F)),
    StableHlo.binary main_v3 main_v67 main_v68 (cmpi .slt : (⟨S1650000, .i32⟩ : BufTy).Contents (Elt F) → (⟨S1650000, .i32⟩ : BufTy).Contents (Elt F) → (⟨S1650000, .i1⟩ : BufTy).Contents (Elt F)),
    StableHlo.nullary main_c_14 (constantI S_ 32 50000#32),
    StableHlo.unary main_c_14 main_v69 (broadcastInDim S1650000 ![] bcast_S_S1650000 : (⟨S_, .i32⟩ : BufTy).Contents (Elt F) → (⟨S1650000, .i32⟩ : BufTy).Contents (Elt F)),
    StableHlo.binary main_v3 main_v69 main_v70 (addi : (⟨S1650000, .i32⟩ : BufTy).Contents (Elt F) → (⟨S1650000, .i32⟩ : BufTy).Contents (Elt F) → (⟨S1650000, .i32⟩ : BufTy).Contents (Elt F)),
    StableHlo.ternary main_v68 main_v70 main_v3 main_v71 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v71 main_v72 (broadcastInDim S1650000x1 ![0] bcast_S1650000_S1650000x1_0 : (⟨S1650000, .i32⟩ : BufTy).Contents (Elt F) → (⟨S1650000x1, .i32⟩ : BufTy).Contents (Elt F)),
    StableHlo.binary main_v66 main_v72 main_v73 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v74 (broadcastInDim S1650000x1 ![0] bcast_S1650000_S1650000x1_0 : (⟨S1650000, .f32⟩ : BufTy).Contents (Elt F) → (⟨S1650000x1, .f32⟩ : BufTy).Contents (Elt F)),
    StableHlo.unary main_v74 main_v75 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v73 main_v75 main_v76 (mulf : (⟨S1650000x128, .f32⟩ : BufTy).Contents (Elt F) → (⟨S1650000x128, .f32⟩ : BufTy).Contents (Elt F) → (⟨S1650000x128, .f32⟩ : BufTy).Contents (Elt F)),
    StableHlo.nullary main_cst_15 (constant S_ .f32 0x00000000#32),
    StableHlo.unary main_cst_15 main_v77 (broadcastInDim S50000x128 ![] bcast_S_S50000x128 : (⟨S_, .f32⟩ : BufTy).Contents (Elt F) → (⟨S50000x128, .f32⟩ : BufTy).Contents (Elt F)),
    StableHlo.unary main_v6 main_v78 (broadcastInDim S1650000x1 ![0] bcast_S1650000_S1650000x1_0 : (⟨S1650000, .i32⟩ : BufTy).Contents (Elt F) → (⟨S1650000x1, .i32⟩ : BufTy).Contents (Elt F)),
    StableHlo.ternary main_v77 main_v78 main_v76 main_v79 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Layer 2: the bias, mean, variance, normalisation and scale (main_v80 … main_v97). 44 operations. -/
abbrev p1c : List (HloOp τ sig (Elt F)) :=
  [ StableHlo.unary main_arg7 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x00000000#32),
    StableHlo.binary main_v82 main_cst_16 main_v83 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v83 main_v84 (broadcastInDim S50000x1 ![0] bcast_S50000_S50000x1_0 : (⟨S50000, .f32⟩ : BufTy).Contents (Elt F) → (⟨S50000x1, .f32⟩ : BufTy).Contents (Elt F)),
    StableHlo.nullary main_cst_17 (constant S_ .f32 0x43000000#32),
    StableHlo.unary main_cst_17 main_v85 (broadcastInDim S50000x1 ![] bcast_S_S50000x1 : (⟨S_, .f32⟩ : BufTy).Contents (Elt F) → (⟨S50000x1, .f32⟩ : BufTy).Contents (Elt F)),
    StableHlo.binary main_v84 main_v85 main_v86 (Host.divf : (⟨S50000x1, .f32⟩ : BufTy).Contents (Elt F) → (⟨S50000x1, .f32⟩ : BufTy).Contents (Elt F) → (⟨S50000x1, .f32⟩ : BufTy).Contents (Elt F)),
    StableHlo.nullary main_c_18 (constantI S_ 32 0#32),
    StableHlo.TRef.nullary main_call3.cst (constant S_ .f32 0x00000000#32),
    StableHlo.TRef.binary (.of main_v82) main_call3.cst main_call3.v0 (fun x v => Host.reduceAdd x v reducesTo_S50000x128_S50000_d1 h_S_),
    StableHlo.TRef.unary main_call3.v0 main_call3.v1 (broadcastInDim S50000x1 ![0] bcast_S50000_S50000x1_0),
    StableHlo.TRef.nullary main_call3.cst_0 (constant S_ .f32 0x43000000#32),
    StableHlo.TRef.unary main_call3.cst_0 main_call3.v2 (broadcastInDim S50000x1 ![] bcast_S_S50000x1),
    StableHlo.TRef.binary main_call3.v1 main_call3.v2 main_call3.v3 Host.divf,
    StableHlo.TRef.unary main_call3.v3 main_call3.v4 (broadcastInDim S50000x128 ![0, 1] bcast_S50000x1_S50000x128_0_1),
    StableHlo.TRef.binary (.of main_v82) main_call3.v4 main_call3.v5 subf,
    StableHlo.TRef.binary main_call3.v5 main_call3.v5 main_call3.v6 mulf,
    StableHlo.TRef.unary (.of main_c_18) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S50000_d1 h_S_),
    StableHlo.TRef.unary main_call3.v9 main_call3.v10 (broadcastInDim S50000x1 ![0] bcast_S50000_S50000x1_0),
    StableHlo.TRef.unary main_call3.v8 main_call3.v11 (broadcastInDim S50000x1 ![] bcast_S_S50000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S50000x1 ![] bcast_S_S50000x1),
    StableHlo.TRef.ternary main_call3.v13 main_call3.v12 main_call3.call0.v1 main_call3.call0.v2 (fun p a b => select (broadcastInDim S50000x1 ![] bcast_S_S50000x1 p) a b),
    StableHlo.unary main_v86 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v82 main_v88 main_v89 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v90 (broadcastInDim S50000x1 ![] bcast_S_S50000x1 : (⟨S_, .f32⟩ : BufTy).Contents (Elt F) → (⟨S50000x1, .f32⟩ : BufTy).Contents (Elt F)),
    StableHlo.binary main_v87 main_v90 main_v91 (addf : (⟨S50000x1, .f32⟩ : BufTy).Contents (Elt F) → (⟨S50000x1, .f32⟩ : BufTy).Contents (Elt F) → (⟨S50000x1, .f32⟩ : BufTy).Contents (Elt F)),
    StableHlo.unary main_v91 main_v92 (Host.rsqrt : (⟨S50000x1, .f32⟩ : BufTy).Contents (Elt F) → (⟨S50000x1, .f32⟩ : BufTy).Contents (Elt F)),
    StableHlo.unary main_v92 main_v93 (broadcastInDim S50000x128 ![0, 1] bcast_S50000x1_S50000x128_0_1 : (⟨S50000x1, .f32⟩ : BufTy).Contents (Elt F) → (⟨S50000x128, .f32⟩ : BufTy).Contents (Elt F)),
    StableHlo.binary main_v89 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_arg8 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (mulf : (⟨S50000x128, .f32⟩ : BufTy).Contents (Elt F) → (⟨S50000x128, .f32⟩ : BufTy).Contents (Elt F) → (⟨S50000x128, .f32⟩ : BufTy).Contents (Elt F)) ]

/-- Layer 2: the shift and ELU (main_v98 … main_v101). 18 operations. -/
abbrev p2 : List (HloOp τ sig (Elt F)) :=
  [ StableHlo.unary main_arg9 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v99 main_v100 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v100) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary (.of main_v100) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 (.of main_v100) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 (.of main_v100) main_call4.v7 main_call4.call1.v0 select ]

/-- @main's first, second and third printed stretch, and all of @main. -/
abbrev ops0 : List (HloOp τ sig (Elt F)) := p0a ++ (p0b ++ p0c)
abbrev ops1 : List (HloOp τ sig (Elt F)) := p1a ++ (p1b ++ p1c)
abbrev ops2 : List (HloOp τ sig (Elt F)) := p2
abbrev ops : List (HloOp τ sig (Elt F)) := ops0 ++ (ops1 ++ ops2)

end Cert.ReferenceIdeal.RefOps

end
-- ==== Proof.RefMain.lean ====
import proofs.«123684_j32667521253433_1_alg».proof.Proof.Spec
import proofs.«123684_j32667521253433_1_alg».proof.Proof.RefOps
import proofs.«123684_j32667521253433_1_alg».proof.Proof.Gen.ReferenceIdeal
import Idealize.ShloMosaic.Lib.StableHlo.Run
import Idealize.ShloMosaic.Lib.ValueIdx

noncomputable section

namespace Cert.ReferenceIdeal.RefMain

open Idealize.ShloMosaic Idealize.ShloMosaic.ValueIdx Idealize.SL.Sem
open Cert.ReferenceIdeal Cert.ReferenceIdeal.RefOps Idealize.ShloMosaic.StableHlo

variable {F : FTy → Type} [FloatOps F]

/-! ## @main window by window

Each printed stretch of @main, with the outlined functions' bodies unfolded at their calls and the call records at their
fields, is one chain of host steps; so is the straight line of the stretch's table once sequencing is reassociated. -/

set_option maxRecDepth 8192 in
set_option maxHeartbeats 4000000 in
/-- The first stretch is the straight line of its operations. -/
theorem part0_eq (c : Dev nD) : main_part0 (F := F) c = seq (ops0 (F := F)) := by
  simp only [main_part0, fn_where.body, ops0, p0a, p0b, p0c, List.cons_append, List.nil_append, seq, bind_assoc, pure_bind]
  rfl

set_option maxRecDepth 16384 in
set_option maxHeartbeats 8000000 in
/-- The second stretch is the straight line of its operations. -/
theorem part1_eq (c : Dev nD) : main_part1 (F := F) c = seq (ops1 (F := F)) := by
  simp only [main_part1, fn_var.body, fn_where_0.body, fn_elu.body, fn_where_1.body, fn_where_2.body, ops1, p1a, p1b, p1c,
    List.cons_append, List.nil_append, seq, bind_assoc, pure_bind]
  rfl

set_option maxRecDepth 4096 in
set_option maxHeartbeats 1000000 in
/-- The third stretch is the straight line of its operations. -/
theorem part2_eq (c : Dev nD) : main_part2 (F := F) c = seq (ops2 (F := F)) := by
  simp only [main_part2, fn_elu.body, fn_where_1.body, fn_where_2.body, ops2, p2, seq, bind_assoc, pure_bind]

/-- @main is the straight line of its operations, the outlined functions' operations at their call sites. -/
theorem main_eq (c : Dev nD) : main (F := F) c = seq (ops (F := F)) := by
  simp only [main, ops, seq_append, part0_eq, part1_eq, part2_eq, bind_assoc]

/-! ## The operations' buffers, piece by piece -/

/-- Every operation of this piece touches TensorCore references only. -/
theorem p0a_sub : (p0a (F := F)).Forall fun op => op.bufs ⊆ tcRefs τ sig := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp

/-- No operation of this piece allocates a buffer. -/
theorem p0a_fresh : (p0a (F := F)).Forall fun op => op.fresh = ∅ := by
  simp only [List.Forall]; repeat' constructor

/-- Every operation of this piece touches TensorCore references only. -/
theorem p0b_sub : (p0b (F := F)).Forall fun op => op.bufs ⊆ tcRefs τ sig := by
  simp only [List.Forall]
  refine ⟨?_, ?_, ?_, ?_, ?_, ?_, ?_, ?_, ?_, ?_, ?_, ?_, ?_, ?_, ?_, ?_, ?_⟩ <;> simp

/-- No operation of this piece allocates a buffer. -/
theorem p0b_fresh : (p0b (F := F)).Forall fun op => op.fresh = ∅ := by
  simp only [List.Forall]; repeat' constructor

/-- Every operation of this piece touches TensorCore references only. -/
theorem p0c_sub : (p0c (F := F)).Forall fun op => op.bufs ⊆ tcRefs τ sig := by
  simp only [List.Forall]
  refine ⟨?_, ?_, ?_, ?_, ?_⟩ <;> simp

/-- No operation of this piece allocates a buffer. -/
theorem p0c_fresh : (p0c (F := F)).Forall fun op => op.fresh = ∅ := by
  simp only [List.Forall]; repeat' constructor

/-- Every operation of this piece touches TensorCore references only. -/
theorem p1a_sub : (p1a (F := F)).Forall fun op => op.bufs ⊆ tcRefs τ sig := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp

/-- No operation of this piece allocates a buffer. -/
theorem p1a_fresh : (p1a (F := F)).Forall fun op => op.fresh = ∅ := by
  simp only [List.Forall]; repeat' constructor

/-- Every operation of this piece touches TensorCore references only. -/
theorem p1b_sub : (p1b (F := F)).Forall fun op => op.bufs ⊆ tcRefs τ sig := by
  simp only [List.Forall]
  refine ⟨?_, ?_, ?_, ?_, ?_, ?_, ?_, ?_, ?_, ?_, ?_, ?_, ?_, ?_, ?_, ?_, ?_⟩ <;> simp

/-- No operation of this piece allocates a buffer. -/
theorem p1b_fresh : (p1b (F := F)).Forall fun op => op.fresh = ∅ := by
  simp only [List.Forall]; repeat' constructor

/-- Every operation of this piece touches TensorCore references only. -/
theorem p1c_sub : (p1c (F := F)).Forall fun op => op.bufs ⊆ tcRefs τ sig := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp

/-- No operation of this piece allocates a buffer. -/
theorem p1c_fresh : (p1c (F := F)).Forall fun op => op.fresh = ∅ := by
  simp only [List.Forall]; repeat' constructor

/-- Every operation of this piece touches TensorCore references only. -/
theorem p2_sub : (p2 (F := F)).Forall fun op => op.bufs ⊆ tcRefs τ sig := by
  simp only [List.Forall]
  refine ⟨?_, ?_, ?_, ?_, ?_, ?_, ?_, ?_, ?_, ?_, ?_, ?_, ?_, ?_, ?_, ?_, ?_, ?_⟩ <;> simp

/-- No operation of this piece allocates a buffer. -/
theorem p2_fresh : (p2 (F := F)).Forall fun op => op.fresh = ∅ := by
  simp only [List.Forall]; repeat' constructor

/-- Every operation touches TensorCore references only. -/
theorem ops_sub : (ops (F := F)).Forall fun op => op.bufs ⊆ tcRefs τ sig :=
  List.forall_append.mpr ⟨List.forall_append.mpr ⟨p0a_sub, List.forall_append.mpr ⟨p0b_sub, p0c_sub⟩⟩,
    List.forall_append.mpr ⟨List.forall_append.mpr ⟨p1a_sub, List.forall_append.mpr ⟨p1b_sub, p1c_sub⟩⟩, p2_sub⟩⟩

/-- No operation allocates a buffer. -/
theorem ops_fresh : (ops (F := F)).Forall fun op => op.fresh = ∅ :=
  List.forall_append.mpr ⟨List.forall_append.mpr ⟨p0a_fresh, List.forall_append.mpr ⟨p0b_fresh, p0c_fresh⟩⟩,
    List.forall_append.mpr ⟨List.forall_append.mpr ⟨p1a_fresh, List.forall_append.mpr ⟨p1b_fresh, p1c_fresh⟩⟩, p2_fresh⟩⟩

/-- The signature scopes no TensorCore reference. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every weakly fair execution of @main terminates without a fault, and every final state has each TensorCore buffer
    at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefMain

end
-- ==== Proof.RefVal.lean ====
import proofs.«123684_j32667521253433_1_alg».proof.Proof.Spec
import proofs.«123684_j32667521253433_1_alg».proof.Proof.RefOps
import proofs.«123684_j32667521253433_1_alg».proof.Proof.Gen.ReferenceIdeal
import Idealize.ShloMosaic.Lib.StableHlo.Run
import Idealize.ShloMosaic.Lib.ValueIdx

noncomputable section

namespace Cert.ReferenceIdeal.RefVal

open Idealize.ShloMosaic Idealize.ShloMosaic.ValueIdx Idealize.SL.Sem
open Cert.ReferenceIdeal Cert.ReferenceIdeal.RefOps Idealize.ShloMosaic.StableHlo

variable {F : FTy → Type} [FloatOps F]

/-- The fold over two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## What each piece writes -/

/-- The buffers p0a's operations write. -/
abbrev p0aW : List (Ref sig .tc) :=
  [main_v0, main_v1, main_v2, main_v3, main_v4, main_v5, main_v6, main_cst, main_v7, main_cst_0, main_v8, main_v9, main_v10, main_cst_1, main_v11, main_v12, main_v13, main_cst_2, main_call0.v0.ref, main_call0.v1.ref, main_call0.v2.ref, main_c, main_v15, main_v16, main_c_3, main_v17, main_v18, main_v19, main_v20, main_v21, main_c_4, main_v22, main_v23, main_c_5, main_v24, main_v25, main_v26, main_v27, main_v28, main_v29]
theorem p0a_sub : (p0a (F := F)).Forall fun op => op.writes ⊆ ((p0aW).map (Proc.devRef (τ := τ) .tc)).toFinset := by
  simp only [p0a, List.Forall]
  repeat' apply And.intro
  all_goals (simp only [nullary_writes, unary_writes, binary_writes, ternary_writes, reshape_writes, Finset.singleton_subset_iff, List.mem_toFinset]; exact List.mem_map_of_mem (by decide))
/-- A buffer the piece does not write keeps its contents. -/
theorem p0a_kept (W : Valuation τ sig (Elt F)) {r : Ref sig .tc} (hr : r ∉ p0aW) : after (p0a (F := F)) W (Proc.devRef .tc r) = W (Proc.devRef .tc r) :=
  after_of_writes_sub _ W p0a_sub hr

/-- The buffers p0b's operations write. -/
abbrev p0bW : List (Ref sig .tc) :=
  [main_v30, main_c_6, main_v31, main_v32, main_c_7, main_v33, main_v34, main_v35, main_v36, main_v37, main_v38, main_v39, main_v40, main_cst_8, main_v41, main_v42, main_v43]
theorem p0b_sub : (p0b (F := F)).Forall fun op => op.writes ⊆ ((p0bW).map (Proc.devRef (τ := τ) .tc)).toFinset := by
  simp only [p0b, List.Forall]
  repeat' apply And.intro
  all_goals (simp only [nullary_writes, unary_writes, binary_writes, ternary_writes, reshape_writes, Finset.singleton_subset_iff, List.mem_toFinset]; exact List.mem_map_of_mem (by decide))
/-- A buffer the piece does not write keeps its contents. -/
theorem p0b_kept (W : Valuation τ sig (Elt F)) {r : Ref sig .tc} (hr : r ∉ p0bW) : after (p0b (F := F)) W (Proc.devRef .tc r) = W (Proc.devRef .tc r) :=
  after_of_writes_sub _ W p0b_sub hr

/-- The buffers p0c's operations write. -/
abbrev p0cW : List (Ref sig .tc) :=
  [main_v44, main_v45, main_v46, main_cst_9, main_v47]
theorem p0c_sub : (p0c (F := F)).Forall fun op => op.writes ⊆ ((p0cW).map (Proc.devRef (τ := τ) .tc)).toFinset := by
  simp only [p0c, List.Forall]
  repeat' apply And.intro
  all_goals (simp only [nullary_writes, unary_writes, binary_writes, ternary_writes, reshape_writes, Finset.singleton_subset_iff, List.mem_toFinset]; exact List.mem_map_of_mem (by decide))
/-- A buffer the piece does not write keeps its contents. -/
theorem p0c_kept (W : Valuation τ sig (Elt F)) {r : Ref sig .tc} (hr : r ∉ p0cW) : after (p0c (F := F)) W (Proc.devRef .tc r) = W (Proc.devRef .tc r) :=
  after_of_writes_sub _ W p0c_sub hr

/-- The buffers p1a's operations write. -/
abbrev p1aW : List (Ref sig .tc) :=
  [main_v48, main_cst_10, main_v49, main_v50, main_c_11, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v52, main_v53, main_cst_12, main_v54, main_v55, main_v56, main_v57, main_v58, main_v59, main_v60, main_v61, main_v62, main_v63, main_v64, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]
theorem p1a_sub : (p1a (F := F)).Forall fun op => op.writes ⊆ ((p1aW).map (Proc.devRef (τ := τ) .tc)).toFinset := by
  simp only [p1a, List.Forall]
  repeat' apply And.intro
  all_goals (simp only [nullary_writes, unary_writes, binary_writes, ternary_writes, reshape_writes, Finset.singleton_subset_iff, List.mem_toFinset]; exact List.mem_map_of_mem (by decide))
/-- A buffer the piece does not write keeps its contents. -/
theorem p1a_kept (W : Valuation τ sig (Elt F)) {r : Ref sig .tc} (hr : r ∉ p1aW) : after (p1a (F := F)) W (Proc.devRef .tc r) = W (Proc.devRef .tc r) :=
  after_of_writes_sub _ W p1a_sub hr

/-- The buffers p1b's operations write. -/
abbrev p1bW : List (Ref sig .tc) :=
  [main_v66, main_c_13, main_v67, main_v68, main_c_14, main_v69, main_v70, main_v71, main_v72, main_v73, main_v74, main_v75, main_v76, main_cst_15, main_v77, main_v78, main_v79]
theorem p1b_sub : (p1b (F := F)).Forall fun op => op.writes ⊆ ((p1bW).map (Proc.devRef (τ := τ) .tc)).toFinset := by
  simp only [p1b, List.Forall]
  repeat' apply And.intro
  all_goals (simp only [nullary_writes, unary_writes, binary_writes, ternary_writes, reshape_writes, Finset.singleton_subset_iff, List.mem_toFinset]; exact List.mem_map_of_mem (by decide))
/-- A buffer the piece does not write keeps its contents. -/
theorem p1b_kept (W : Valuation τ sig (Elt F)) {r : Ref sig .tc} (hr : r ∉ p1bW) : after (p1b (F := F)) W (Proc.devRef .tc r) = W (Proc.devRef .tc r) :=
  after_of_writes_sub _ W p1b_sub hr

/-- The buffers p1c's operations write. -/
abbrev p1cW : List (Ref sig .tc) :=
  [main_v80, main_v81, main_v82, main_cst_16, main_v83, main_v84, main_cst_17, main_v85, main_v86, main_c_18, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.v12.ref, main_call3.cst_3.ref, main_call3.v13.ref, main_call3.cst_4.ref, main_call3.call0.v0.ref, main_call3.call0.v1.ref, main_call3.call0.v2.ref, main_v88, main_v89, main_cst_19, main_v90, main_v91, main_v92, main_v93, main_v94, main_v95, main_v96, main_v97]
theorem p1c_sub : (p1c (F := F)).Forall fun op => op.writes ⊆ ((p1cW).map (Proc.devRef (τ := τ) .tc)).toFinset := by
  simp only [p1c, List.Forall]
  repeat' apply And.intro
  all_goals (simp only [nullary_writes, unary_writes, binary_writes, ternary_writes, reshape_writes, Finset.singleton_subset_iff, List.mem_toFinset]; exact List.mem_map_of_mem (by decide))
/-- A buffer the piece does not write keeps its contents. -/
theorem p1c_kept (W : Valuation τ sig (Elt F)) {r : Ref sig .tc} (hr : r ∉ p1cW) : after (p1c (F := F)) W (Proc.devRef .tc r) = W (Proc.devRef .tc r) :=
  after_of_writes_sub _ W p1c_sub hr

/-- The buffers p2's operations write. -/
abbrev p2W : List (Ref sig .tc) :=
  [main_v98, main_v99, main_v100, main_call4.cst.ref, main_call4.v0.ref, main_call4.v1.ref, main_call4.cst_0.ref, main_call4.v2.ref, main_call4.v3.ref, main_call4.cst_1.ref, main_call4.call0.v0.ref, main_call4.call0.v1.ref, main_call4.call0.v2.ref, main_call4.v5.ref, main_call4.cst_2.ref, main_call4.v6.ref, main_call4.v7.ref, main_call4.call1.v0.ref]
theorem p2_sub : (p2 (F := F)).Forall fun op => op.writes ⊆ ((p2W).map (Proc.devRef (τ := τ) .tc)).toFinset := by
  simp only [p2, List.Forall]
  repeat' apply And.intro
  all_goals (simp only [nullary_writes, unary_writes, binary_writes, ternary_writes, reshape_writes, Finset.singleton_subset_iff, List.mem_toFinset]; exact List.mem_map_of_mem (by decide))
/-- A buffer the piece does not write keeps its contents. -/
theorem p2_kept (W : Valuation τ sig (Elt F)) {r : Ref sig .tc} (hr : r ∉ p2W) : after (p2 (F := F)) W (Proc.devRef .tc r) = W (Proc.devRef .tc r) :=
  after_of_writes_sub _ W p2_sub hr

/-! ## What each piece computes, over an arbitrary valuation -/

attribute [local irreducible] Host.gather Host.scatterAdd Host.reduceAdd

/-- The sources with the self-loops appended. -/
theorem p0a_v3 (W : Valuation τ sig (Elt F)) :
    after (p0a (F := F)) W (Proc.devRef .tc main_v3) = Cert.Spec.srcOf (W (Proc.devRef .tc main_arg1)) := by
  simp only [p0a]
  after_results_simp
  rfl

/-- The destinations with the self-loops appended. -/
theorem p0a_v6 (W : Valuation τ sig (Elt F)) :
    after (p0a (F := F)) W (Proc.devRef .tc main_v6) = Cert.Spec.dstOf (W (Proc.devRef .tc main_arg1)) := by
  simp only [p0a]
  after_results_simp
  rfl

/-- The edge weights. -/
theorem p0a_v29 (W : Valuation τ sig (Elt F)) :
    after (p0a (F := F)) W (Proc.devRef .tc main_v29) = Cert.Spec.normOf (F := F) (W (Proc.devRef .tc main_arg1)) := by
  simp only [p0a]
  after_results_simp
  first | rfl | (simp only [TRef.ofBuf, TRef.toBuf, cast_eq]; rfl)

/-- Layer 1's neighbourhood sum of the dense product. -/
theorem p0b_v43 (W : Valuation τ sig (Elt F)) :
    after (p0b (F := F)) W (Proc.devRef .tc main_v43)
      = Cert.Spec.agg (Cert.Spec.mm (W (Proc.devRef .tc main_arg0)) (W (Proc.devRef .tc main_arg2))) (W (Proc.devRef .tc main_v3)) (W (Proc.devRef .tc main_v6)) (W (Proc.devRef .tc main_v29)) := by
  simp only [p0b]
  after_results_simp
  rfl

/-- Layer 1's bias, LayerNorm and ELU. -/
theorem l1_v65 (W : Valuation τ sig (Elt F)) :
    after (p1a (F := F)) (after (p0c (F := F)) W) (Proc.devRef .tc main_v65)
      = Cert.Spec.lnElu (W (Proc.devRef .tc main_v43)) (W (Proc.devRef .tc main_arg3)) (W (Proc.devRef .tc main_arg4)) (W (Proc.devRef .tc main_arg5)) := by
  simp only [p0c, p1a]
  after_results_simp
  first | rfl | (simp only [TRef.ofBuf, TRef.toBuf, cast_eq]; rfl)

/-- Layer 2's neighbourhood sum of the dense product. -/
theorem p1b_v79 (W : Valuation τ sig (Elt F)) :
    after (p1b (F := F)) W (Proc.devRef .tc main_v79)
      = Cert.Spec.agg (Cert.Spec.mm (W (Proc.devRef .tc main_v65)) (W (Proc.devRef .tc main_arg6))) (W (Proc.devRef .tc main_v3)) (W (Proc.devRef .tc main_v6)) (W (Proc.devRef .tc main_v29)) := by
  simp only [p1b]
  after_results_simp
  rfl

/-- Layer 2's bias, LayerNorm and ELU. -/
theorem l2_v101 (W : Valuation τ sig (Elt F)) :
    after (p2 (F := F)) (after (p1c (F := F)) W) (Proc.devRef .tc main_v101)
      = Cert.Spec.lnElu (W (Proc.devRef .tc main_v79)) (W (Proc.devRef .tc main_arg7)) (W (Proc.devRef .tc main_arg8)) (W (Proc.devRef .tc main_arg9)) := by
  simp only [p1c, p2]
  after_results_simp
  first | rfl | (simp only [TRef.ofBuf, TRef.toBuf, cast_eq]; rfl)

/-! ## The pieces in a row -/

/-- A buffer no piece writes keeps its contents through all of @main. -/
theorem ops_kept (V : Valuation τ sig (Elt F)) {r : Ref sig .tc} (h0a : r ∉ p0aW) (h0b : r ∉ p0bW) (h0c : r ∉ p0cW)
    (h1a : r ∉ p1aW) (h1b : r ∉ p1bW) (h1c : r ∉ p1cW) (h2 : r ∉ p2W) :
    after (ops (F := F)) V (Proc.devRef .tc r) = V (Proc.devRef .tc r) := by
  simp only [ops, ops0, ops1, ops2, after_app]
  rw [p2_kept _ h2, p1c_kept _ h1c, p1b_kept _ h1b, p1a_kept _ h1a, p0c_kept _ h0c, p0b_kept _ h0b, p0a_kept _ h0a]

/-- The fold of @main's operations at the result buffer is the two-layer block of the argument buffers' contents. -/
theorem out_eq (V : Valuation τ sig (Elt F)) :
    after (ops (F := F)) V (Proc.devRef .tc main_v101)
      = Cert.Spec.out (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp only [ops, ops0, ops1, ops2, after_app]
  -- layer 2's LayerNorm and ELU, over what layer 2's neighbourhood sum leaves
  rw [l2_v101]
  rw [p1b_v79,
    p1b_kept _ (r := main_arg7) (by decide),
    p1b_kept _ (r := main_arg8) (by decide),
    p1b_kept _ (r := main_arg9) (by decide)]
  -- layer 1's LayerNorm and ELU; the edge list, the weights and layer 2's parameters pass through it
  rw [l1_v65]
  rw [p1a_kept _ (r := main_arg6) (by decide),
    p0c_kept _ (r := main_arg6) (by decide),
    p1a_kept _ (r := main_arg7) (by decide),
    p0c_kept _ (r := main_arg7) (by decide),
    p1a_kept _ (r := main_arg8) (by decide),
    p0c_kept _ (r := main_arg8) (by decide),
    p1a_kept _ (r := main_arg9) (by decide),
    p0c_kept _ (r := main_arg9) (by decide),
    p1a_kept _ (r := main_v3) (by decide),
    p0c_kept _ (r := main_v3) (by decide),
    p1a_kept _ (r := main_v6) (by decide),
    p0c_kept _ (r := main_v6) (by decide),
    p1a_kept _ (r := main_v29) (by decide),
    p0c_kept _ (r := main_v29) (by decide)]
  -- layer 1's neighbourhood sum
  rw [p0b_v43,
    p0b_kept _ (r := main_arg3) (by decide),
    p0b_kept _ (r := main_arg4) (by decide),
    p0b_kept _ (r := main_arg5) (by decide),
    p0b_kept _ (r := main_arg6) (by decide),
    p0b_kept _ (r := main_arg7) (by decide),
    p0b_kept _ (r := main_arg8) (by decide),
    p0b_kept _ (r := main_arg9) (by decide),
    p0b_kept _ (r := main_v3) (by decide),
    p0b_kept _ (r := main_v6) (by decide),
    p0b_kept _ (r := main_v29) (by decide)]
  -- the edge list and the weights
  rw [p0a_v3,
    p0a_v6,
    p0a_v29,
    p0a_kept _ (r := main_arg0) (by decide),
    p0a_kept _ (r := main_arg2) (by decide),
    p0a_kept _ (r := main_arg3) (by decide),
    p0a_kept _ (r := main_arg4) (by decide),
    p0a_kept _ (r := main_arg5) (by decide),
    p0a_kept _ (r := main_arg6) (by decide),
    p0a_kept _ (r := main_arg7) (by decide),
    p0a_kept _ (r := main_arg8) (by decide),
    p0a_kept _ (r := main_arg9) (by decide)]
  rfl

/-- No operation writes argument 0. -/
theorem arg0_eq (V : Valuation τ sig (Elt F)) : after (ops (F := F)) V (Proc.devRef .tc main_arg0) = V (Proc.devRef .tc main_arg0) :=
  ops_kept V (by decide) (by decide) (by decide) (by decide) (by decide) (by decide) (by decide)

/-- No operation writes argument 1. -/
theorem arg1_eq (V : Valuation τ sig (Elt F)) : after (ops (F := F)) V (Proc.devRef .tc main_arg1) = V (Proc.devRef .tc main_arg1) :=
  ops_kept V (by decide) (by decide) (by decide) (by decide) (by decide) (by decide) (by decide)

/-- No operation writes argument 2. -/
theorem arg2_eq (V : Valuation τ sig (Elt F)) : after (ops (F := F)) V (Proc.devRef .tc main_arg2) = V (Proc.devRef .tc main_arg2) :=
  ops_kept V (by decide) (by decide) (by decide) (by decide) (by decide) (by decide) (by decide)

/-- No operation writes argument 3. -/
theorem arg3_eq (V : Valuation τ sig (Elt F)) : after (ops (F := F)) V (Proc.devRef .tc main_arg3) = V (Proc.devRef .tc main_arg3) :=
  ops_kept V (by decide) (by decide) (by decide) (by decide) (by decide) (by decide) (by decide)

/-- No operation writes argument 4. -/
theorem arg4_eq (V : Valuation τ sig (Elt F)) : after (ops (F := F)) V (Proc.devRef .tc main_arg4) = V (Proc.devRef .tc main_arg4) :=
  ops_kept V (by decide) (by decide) (by decide) (by decide) (by decide) (by decide) (by decide)

/-- No operation writes argument 5. -/
theorem arg5_eq (V : Valuation τ sig (Elt F)) : after (ops (F := F)) V (Proc.devRef .tc main_arg5) = V (Proc.devRef .tc main_arg5) :=
  ops_kept V (by decide) (by decide) (by decide) (by decide) (by decide) (by decide) (by decide)

/-- No operation writes argument 6. -/
theorem arg6_eq (V : Valuation τ sig (Elt F)) : after (ops (F := F)) V (Proc.devRef .tc main_arg6) = V (Proc.devRef .tc main_arg6) :=
  ops_kept V (by decide) (by decide) (by decide) (by decide) (by decide) (by decide) (by decide)

/-- No operation writes argument 7. -/
theorem arg7_eq (V : Valuation τ sig (Elt F)) : after (ops (F := F)) V (Proc.devRef .tc main_arg7) = V (Proc.devRef .tc main_arg7) :=
  ops_kept V (by decide) (by decide) (by decide) (by decide) (by decide) (by decide) (by decide)

/-- No operation writes argument 8. -/
theorem arg8_eq (V : Valuation τ sig (Elt F)) : after (ops (F := F)) V (Proc.devRef .tc main_arg8) = V (Proc.devRef .tc main_arg8) :=
  ops_kept V (by decide) (by decide) (by decide) (by decide) (by decide) (by decide) (by decide)

/-- No operation writes argument 9. -/
theorem arg9_eq (V : Valuation τ sig (Elt F)) : after (ops (F := F)) V (Proc.devRef .tc main_arg9) = V (Proc.devRef .tc main_arg9) :=
  ops_kept V (by decide) (by decide) (by decide) (by decide) (by decide) (by decide) (by decide)

end Cert.ReferenceIdeal.RefVal

end
-- ==== Proof.RefRun.lean ====
import proofs.«123684_j32667521253433_1_alg».proof.Proof.Spec
import proofs.«123684_j32667521253433_1_alg».proof.Proof.RefMain
import proofs.«123684_j32667521253433_1_alg».proof.Proof.RefVal
import proofs.«123684_j32667521253433_1_alg».proof.Proof.Gen.ReferenceIdeal
import Idealize.ShloMosaic.Lib.StableHlo.Run
import Idealize.ShloMosaic.Lib.ValueIdx

noncomputable section

namespace Cert.ReferenceIdeal.RefRun

open Idealize.ShloMosaic Idealize.ShloMosaic.TcCoe Idealize.ShloMosaic.ValueIdx Idealize.SL.Sem
open Cert.ReferenceIdeal Idealize.ShloMosaic.StableHlo

variable {F : FTy → Type} [FloatOps F]
variable (m : (ℓ : Loc nD τ sig) → Buf (Elt F) ℓ) (ρ : Dev nD → PrngReg)

/-- The reference's run: every weakly fair execution of its @main terminates without a fault, its result buffer ends
    holding the two-layer block of the argument arrays, and those end as launched. -/
theorem run : θ_run (defs (F := F)) (onTc (τ := τ) (main (F := F))) ⟨m, fun _ => 0, ρ⟩ (fun r => ∀ c : Dev nD,
      r.2.mem ((c.tc : Thread nD τ).loc main_v101) = Cert.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run (defs (F := F)) _ _).mono (fun r h c => ?_) (Cert.ReferenceIdeal.RefMain.run_main (F := F) m ρ)
  exact ⟨(h c main_v101).trans (Cert.ReferenceIdeal.RefVal.out_eq (launchContents m c)),
    (h c main_arg0).trans (Cert.ReferenceIdeal.RefVal.arg0_eq (launchContents m c)),
    (h c main_arg1).trans (Cert.ReferenceIdeal.RefVal.arg1_eq (launchContents m c)),
    (h c main_arg2).trans (Cert.ReferenceIdeal.RefVal.arg2_eq (launchContents m c)),
    (h c main_arg3).trans (Cert.ReferenceIdeal.RefVal.arg3_eq (launchContents m c)),
    (h c main_arg4).trans (Cert.ReferenceIdeal.RefVal.arg4_eq (launchContents m c)),
    (h c main_arg5).trans (Cert.ReferenceIdeal.RefVal.arg5_eq (launchContents m c)),
    (h c main_arg6).trans (Cert.ReferenceIdeal.RefVal.arg6_eq (launchContents m c)),
    (h c main_arg7).trans (Cert.ReferenceIdeal.RefVal.arg7_eq (launchContents m c)),
    (h c main_arg8).trans (Cert.ReferenceIdeal.RefVal.arg8_eq (launchContents m c)),
    (h c main_arg9).trans (Cert.ReferenceIdeal.RefVal.arg9_eq (launchContents m c))⟩

end Cert.ReferenceIdeal.RefRun

end
-- ==== Proof.lean ====
/-
  The certificate of the two-layer graph-convolution block against its jnp reference.

  Both programs build the edge list with self-loops, the degrees and the symmetric edge weights with the SAME host
  operations, and both aggregate each layer's dense product over the edges with the same gather / scatter-add. They
  differ in where the dense work runs: the kernel computes each product x·W in ten row blocks of 5000 on the MXU
  (rounding the operands to bf16, which is the identity over the extended reals) and each bias + LayerNorm + ELU in ten
  row blocks, where the reference runs one dot_general and whole-array LayerNorm / ELU operations. Over the extended
  reals a row block of a matrix product is the product of the row block, LayerNorm and ELU are row-local, jnp.var's
  divisor 128 − 0 is 128, and 1 · expm1 (min z 0) is exp z − 1 where z is not positive; so both results are ONE
  function of the ten argument arrays (Proof/Spec.lean). No algebraic law that needs finiteness is used: the
  precondition is never opened.

  frame_Kernel, frame_KernelIdeal: the generated frames. frame_ReferenceIdeal and the reference's leg of the value
  claim: the reference's run read back (Proof/RefRun.lean). The kernel's leg: the frame run with the result buffer
  named (Proof/KRun.lean) and that buffer's contents computed region by region (Proof/HostVal.lean).
  preserves: the ideal pass rewrote nothing.
-/
import proofs.«123684_j32667521253433_1_alg».proof.Defs
import proofs.«123684_j32667521253433_1_alg».proof.Proof.Gen.Kernel
import proofs.«123684_j32667521253433_1_alg».proof.Proof.Gen.Kernel.Skeleton
import proofs.«123684_j32667521253433_1_alg».proof.Proof.Gen.Kernel.Launch
import proofs.«123684_j32667521253433_1_alg».proof.Proof.Gen.Kernel.Points
import proofs.«123684_j32667521253433_1_alg».proof.Proof.Gen.Kernel.Frame
import proofs.«123684_j32667521253433_1_alg».proof.Proof.Gen.KernelIdeal
import proofs.«123684_j32667521253433_1_alg».proof.Proof.Gen.KernelIdeal.Skeleton
import proofs.«123684_j32667521253433_1_alg».proof.Proof.Gen.KernelIdeal.Launch
import proofs.«123684_j32667521253433_1_alg».proof.Proof.Gen.KernelIdeal.Points
import proofs.«123684_j32667521253433_1_alg».proof.Proof.Gen.KernelIdeal.Frame
import proofs.«123684_j32667521253433_1_alg».proof.Proof.Gen.ReferenceIdeal
import proofs.«123684_j32667521253433_1_alg».proof.Proof.Gen.Pre_finite_inputs
import proofs.«123684_j32667521253433_1_alg».proof.Proof.KRun
import proofs.«123684_j32667521253433_1_alg».proof.Proof.HostVal
import proofs.«123684_j32667521253433_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the specification's function of arguments that agree. -/
theorem algebraic : Cert.algebraic_KernelIdeal_ReferenceIdeal := by
  intro m ρ m' ρ' _ hagree
  refine ⟨fun c => Cert.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.HostVal.W9_result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
